-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v13) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x8x257x600 : Shape := ⟨4, ![8, 8, 257, 600]⟩
abbrev S_ : Shape := ⟨0, ![]⟩

class Facts : Prop where
  bcast_S_S8x8x257x600 : S_.BroadcastsInDim S8x8x257x600 (![] : Fin 0 → Fin S8x8x257x600.rank)
  reducesTo_S8x8x257x600_S_d0_1_2_3 : S8x8x257x600.ReducesTo [0, 1, 2, 3] S_
  h_S_ : 0 < S_.numel

variable [Facts]

def fn {F : FTy → Type} [FloatOps F] (main_arg0 : FVec F S8x8x257x600 .f32) : IVec S_ 1 :=
  let main_v0 : FVec F S8x8x257x600 .f32 := Host.absf main_arg0
  let main_cst : FVec F S_ .f32 := constant S_ .f32 0x7F800000#32
  let main_v1 : FVec F S8x8x257x600 .f32 := broadcastInDim S8x8x257x600 ![] bcast_S_S8x8x257x600 main_cst
  let main_v2 : IVec S8x8x257x600 1 := cmpf .olt main_v0 main_v1
  let main_c : IVec S_ 1 := constantI S_ 1 1#1
  let main_v3 : IVec S_ 1 := (fun x v => Host.reduce IntOp.andi x v reducesTo_S8x8x257x600_S_d0_1_2_3 h_S_) main_v2 main_c
  main_v3
-- ==== Kernel.lean ====
abbrev S8x8x257x600 : Shape := ⟨4, ![8, 8, 257, 600]⟩
abbrev S224 : Shape := ⟨1, ![224]⟩
abbrev S224x2x257x600 : Shape := ⟨4, ![224, 2, 257, 600]⟩
abbrev S1x1x257x600 : Shape := ⟨4, ![1, 1, 257, 600]⟩
abbrev S1 : Shape := ⟨1, ![1]⟩
abbrev S1x2x257x600 : Shape := ⟨4, ![1, 2, 257, 600]⟩
abbrev S257x600 : Shape := ⟨2, ![257, 600]⟩

abbrev nBuf : Space → Nat
  | .hbm => 2
  | .vmem => 6
  | .smem => 3
  | _ => 0

abbrev bufTy : (tb : Table) → Fin (tcTables nBuf tb) → BufTy
  | .hbm, ⟨0, _⟩ => ⟨S8x8x257x600, .f32⟩
  | .hbm, ⟨1, _⟩ => ⟨S224x2x257x600, .f32⟩
  | .local _ .vmem, ⟨0, _⟩ => ⟨S1x1x257x600, .f32⟩
  | .local _ .vmem, ⟨1, _⟩ => ⟨S1x1x257x600, .f32⟩
  | .local _ .vmem, ⟨2, _⟩ => ⟨S1x1x257x600, .f32⟩
  | .local _ .vmem, ⟨3, _⟩ => ⟨S1x1x257x600, .f32⟩
  | .local _ .vmem, ⟨4, _⟩ => ⟨S1x2x257x600, .f32⟩
  | .local _ .vmem, ⟨5, _⟩ => ⟨S1x2x257x600, .f32⟩
  | .local _ .smem, ⟨0, _⟩ => ⟨S224, .i32⟩
  | .local _ .smem, ⟨1, _⟩ => ⟨S224, .i32⟩
  | .local _ .smem, ⟨2, _⟩ => ⟨S224, .i32⟩
  | _, _ => ⟨S8x8x257x600, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_c : Ref sig .tc := ⟨.smem, 0, rfl⟩
abbrev main_c_0 : Ref sig .tc := ⟨.smem, 1, rfl⟩
abbrev main_c_1 : Ref sig .tc := ⟨.smem, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![224], ![false]⟩

abbrev pre0 : Pipeline.Prefetch sig := ⟨3, ![main_c.idx, main_c_0.idx, main_c_1.idx], fun | 0 => main_c.names | 1 => main_c_0.names | 2 => main_c_1.names | ⟨_ + 3, h⟩ => absurd h (Nat.not_lt.2 (Nat.le_add_left _ _)), fun | 0 => rfl | 1 => rfl | 2 => rfl | ⟨_ + 3, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def cc0_transform_0 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let v2 : Index := Scalar.indexCast arg0
  let v3 : BitVec 32 := pf.at 1 (Rect.unit (s := S224) ![v2.toNat] S1.size (k0_off1_inb i)) numel1_S1
  let c0_i32 : BitVec 32 := 0#32
  let c0_i32_0 : BitVec 32 := 0#32
  let c0_i32_1 : BitVec 32 := 0#32
  ![v1.toNat, v3.toNat, c0_i32.toNat, c0_i32_0.toNat]

def cc0_transform_1 (k0_off1_inb : ∀ i : grid0.Coords, ∀ a, (k0_off1 i) a + S1.size a ≤ S224.size a) (numel1_S1 : S1.numel = 1) (pf : pre0.Contents (Elt F)) (i : grid0.Coords) : Fin 4 → Nat :=
  let arg0 : BitVec 32 := BitVec.ofNat 32 (i 0).val
  let v0 : Index := Scalar.indexCast arg0
  let v1 : BitVec 32 := pf.at 0 (Rect.unit (s := S224) ![v0.toNat] S1.size (k0_off1_inb i)) numel1_S1
  let v2 : Index := Scalar.indexCast arg0
  let v3 : BitVec 32 := pf.at 2 (Rect.unit (s := S224) ![v2.toNat] S1.size (k0_off1_inb i)) numel1_S1
  let c0_i32 : BitVec 32 := 0#32
  let c0_i32_0 : BitVec 32 := 0#32
  let c0_i32_1 : BitVec 32 := 0#32
  ![v1.toNat, v3.toNat, c0_i32.toNat, c0_i32_0.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

abbrev stage0_0 : Fin 2 → Memref sig .tc .vmem S1x1x257x600 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x1x257x600 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x2x257x600 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  numel1_S1 : S1.numel = 1
  inb_S1x1x257x600_S1x1x257x600_0_0_0_0 : ∀ a, (![0, 0, 0, 0] : Fin 4 → Nat) a + S1x1x257x600.size a ≤ S1x1x257x600.size a
  h_S1x1x257x600 : 0 < S1x1x257x600.numel
  shapeCasts_S1x1x257x600_S257x600 : S1x1x257x600.ShapeCasts S257x600
  inb_S1x2x257x600_S1x1x257x600_0_0_0_0 : ∀ a, (![0, 0, 0, 0] : Fin 4 → Nat) a + S1x1x257x600.size a ≤ S1x2x257x600.size a
  shapeCasts_S257x600_S1x1x257x600 : S257x600.ShapeCasts S1x1x257x600
  inb_S1x2x257x600_S1x1x257x600_0_1_0_0 : ∀ a, (![0, 1, 0, 0] : Fin 4 → Nat) a + S1x1x257x600.size a ≤ S1x2x257x600.size a
  hrank0 : 0 < grid0.rank
  k0_off1_inb : ∀ i : grid0.Coords, ∀ a, (k0_off1 i) a + S1.size a ≤ S224.size a
  hstage0_0 : ∀ j, (stage0_0 j).IsWhole
  nbuf0_0 : grid0.bufCount reads0_0 false = 2
  hreads0_0 : ∀ {F : FTy → Type} [FloatOps F] (pf : pre0.Contents (Elt F)) (i i' : grid0.Coords), (∀ a, reads0_0 a = true → i a = i' a) → cc0_transform_0 k0_off1_inb numel1_S1 pf i = cc0_transform_0 k0_off1_inb numel1_S1 pf i'
  hstage0_1 : ∀ j, (stage0_1 j).IsWhole
  nbuf0_1 : grid0.bufCount reads0_1 false = 2
  hreads0_1 : ∀ {F : FTy → Type} [FloatOps F] (pf : pre0.Contents (Elt F)) (i i' : grid0.Coords), (∀ a, reads0_1 a = true → i a = i' a) → cc0_transform_1 k0_off1_inb numel1_S1 pf i = cc0_transform_1 k0_off1_inb numel1_S1 pf i'
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x2x257x600.size a ≤ S224x2x257x600.size a
  hwx0_2 : ∀ i : grid0.Coords, EltTy.bits .f32 = 32 ∨ (Rect.block (s := S224x2x257x600) S1x2x257x600.size (cc0_transform_2 i) (hinb0_2 i)).WholeWords (EltTy.packing .f32)

variable [Facts₀]

abbrev spec0_0 : Pipeline.WinSpec sig grid0.rank :=
  Pipeline.WinSpec.ofSpec (Memref.whole main_arg0) S1x1x257x600.size reads0_0 false false 2 stage0_0 sem0_0 nbuf0_0 hstage0_0

abbrev spec0_1 : Pipeline.WinSpec sig grid0.rank :=
  Pipeline.WinSpec.ofSpec (Memref.whole main_arg0) S1x1x257x600.size reads0_1 false false 2 stage0_1 sem0_1 nbuf0_1 hstage0_1

abbrev spec0_2 : Pipeline.WinSpec sig grid0.rank :=
  Pipeline.WinSpec.ofSpec (Memref.whole main_v0) S1x2x257x600.size reads0_2 true false 2 stage0_2 sem0_2 nbuf0_2 hstage0_2

abbrev spec0 : Fin 3 → Pipeline.WinSpec sig grid0.rank := fun | 0 => spec0_0 | 1 => spec0_1 | 2 => spec0_2 | ⟨_ + 3, h⟩ => absurd h (Nat.not_lt.2 (Nat.le_add_left _ _))
theorem hcount0 : ∀ w, grid0.bufCount (spec0 w).reads (spec0 w).sync = (spec0 w).nbuf := fun | 0 => nbuf0_0 | 1 => nbuf0_1 | 2 => nbuf0_2 | ⟨_ + 3, h⟩ => absurd h (Nat.not_lt.2 (Nat.le_add_left _ _))
abbrev ix0 (pf : pre0.Contents (Elt F)) : (w : Fin 3) → grid0.Coords → Fin (spec0 w).shape.rank → Nat := fun | 0 => cc0_transform_0 k0_off1_inb numel1_S1 pf | 1 => cc0_transform_1 k0_off1_inb numel1_S1 pf | 2 => cc0_transform_2 | ⟨_ + 3, h⟩ => absurd h (Nat.not_lt.2 (Nat.le_add_left _ _))
theorem hreads0 : ∀ (pf : pre0.Contents (Elt F)) w (i i' : grid0.Coords), (∀ a, (spec0 w).reads a = true → i a = i' a) → ix0 pf w i = ix0 pf w i' := fun pf => fun | 0 => hreads0_0 pf | 1 => hreads0_1 pf | 2 => hreads0_2 | ⟨_ + 3, h⟩ => absurd h (Nat.not_lt.2 (Nat.le_add_left _ _))
def ok0 (pf : pre0.Contents (Elt F)) : Prop :=
  (∀ i : grid0.Coords, ∃ h : (∀ a, (cc0_transform_0 k0_off1_inb numel1_S1 pf i a + 1) * S1x1x257x600.size a ≤ S8x8x257x600.size a), EltTy.bits .f32 = 32 ∨ (Rect.block (s := S8x8x257x600) S1x1x257x600.size (cc0_transform_0 k0_off1_inb numel1_S1 pf i) h).WholeWords (EltTy.packing .f32)) ∧
  (∀ i : grid0.Coords, ∃ h : (∀ a, (cc0_transform_1 k0_off1_inb numel1_S1 pf i a + 1) * S1x1x257x600.size a ≤ S8x8x257x600.size a), EltTy.bits .f32 = 32 ∨ (Rect.block (s := S8x8x257x600) S1x1x257x600.size (cc0_transform_1 k0_off1_inb numel1_S1 pf i) h).WholeWords (EltTy.packing .f32))
instance (pf : pre0.Contents (Elt F)) : Decidable (ok0 pf) := decidable_of_iff' _ (Iff.of_eq (ok0.eq_1 pf))
theorem hinb0 : ∀ (pf : pre0.Contents (Elt F)), ok0 pf → ∀ w (i : grid0.Coords) a, (ix0 pf w i a + 1) * (spec0 w).size a ≤ (spec0 w).shape.size a :=
  fun pf hok => fun | 0 => fun i a => (hok.1 i).elim fun h _ => h a | 1 => fun i a => (hok.2 i).elim fun h _ => h a | 2 => hinb0_2 | ⟨_ + 3, h⟩ => absurd h (Nat.not_lt.2 (Nat.le_add_left _ _))
theorem hwx0 : ∀ (pf : pre0.Contents (Elt F)) (hok : ok0 pf) w (i : grid0.Coords), (spec0 w).elt.bits = 32 ∨ (Rect.block (spec0 w).size (ix0 pf w i) (hinb0 pf hok w i)).WholeWords (spec0 w).elt.packing :=
  fun pf hok => fun | 0 => fun i => (hok.1 i).elim fun _ h => h | 1 => fun i => (hok.2 i).elim fun _ h => h | 2 => hwx0_2 | ⟨_ + 3, h⟩ => absurd h (Nat.not_lt.2 (Nat.le_add_left _ _))

class Facts : Prop extends Facts₀ where
  harr0 : ∀ w, (spec0 w).arr.IsWhole

variable [Facts]
-- ==== ReferenceIdeal.lean ====
abbrev S8x8x257x600 : Shape := ⟨4, ![8, 8, 257, 600]⟩
abbrev S28 : Shape := ⟨1, ![28]⟩
abbrev S_ : Shape := ⟨0, ![]⟩
abbrev S28x1 : Shape := ⟨2, ![28, 1]⟩
abbrev S8x28x257x600 : Shape := ⟨4, ![8, 28, 257, 600]⟩
abbrev S8x28x1x257x600 : Shape := ⟨5, ![8, 28, 1, 257, 600]⟩
abbrev S8x28x2x257x600 : Shape := ⟨5, ![8, 28, 2, 257, 600]⟩
abbrev S224x2x257x600 : Shape := ⟨4, ![224, 2, 257, 600]⟩

abbrev nBuf : Space → Nat
  | .hbm => 21
  | .vmem => 0
  | .smem => 0
  | _ => 0

abbrev bufTy : (tb : Table) → Fin (tcTables nBuf tb) → BufTy
  | .hbm, ⟨0, _⟩ => ⟨S8x8x257x600, .f32⟩
  | .hbm, ⟨1, _⟩ => ⟨S28, .i32⟩
  | .hbm, ⟨2, _⟩ => ⟨S28, .i1⟩
  | .hbm, ⟨3, _⟩ => ⟨S28, .i32⟩
  | .hbm, ⟨4, _⟩ => ⟨S28, .i1⟩
  | .hbm, ⟨5, _⟩ => ⟨S_, .i32⟩
  | .hbm, ⟨6, _⟩ => ⟨S28, .i32⟩
  | .hbm, ⟨7, _⟩ => ⟨S28, .i32⟩
  | .hbm, ⟨8, _⟩ => ⟨S28, .i32⟩
  | .hbm, ⟨9, _⟩ => ⟨S28x1, .i32⟩
  | .hbm, ⟨10, _⟩ => ⟨S8x28x257x600, .f32⟩
  | .hbm, ⟨11, _⟩ => ⟨S_, .i32⟩
  | .hbm, ⟨12, _⟩ => ⟨S28, .i32⟩
  | .hbm, ⟨13, _⟩ => ⟨S28, .i32⟩
  | .hbm, ⟨14, _⟩ => ⟨S28, .i32⟩
  | .hbm, ⟨15, _⟩ => ⟨S28x1, .i32⟩
  | .hbm, ⟨16, _⟩ => ⟨S8x28x257x600, .f32⟩
  | .hbm, ⟨17, _⟩ => ⟨S8x28x1x257x600, .f32⟩
  | .hbm, ⟨18, _⟩ => ⟨S8x28x1x257x600, .f32⟩
  | .hbm, ⟨19, _⟩ => ⟨S8x28x2x257x600, .f32⟩
  | .hbm, ⟨20, _⟩ => ⟨S224x2x257x600, .f32⟩
  | _, _ => ⟨S8x8x257x600, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_c : Ref sig .tc := ⟨.hbm, 1, rfl⟩
abbrev main_c_0 : Ref sig .tc := ⟨.hbm, 2, rfl⟩
abbrev main_c_1 : Ref sig .tc := ⟨.hbm, 3, rfl⟩
abbrev main_c_2 : Ref sig .tc := ⟨.hbm, 4, rfl⟩
abbrev main_c_3 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_c_4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩

abbrev nD : Nat := 1
abbrev τ : Topo := Topo.v7x

variable {F : FTy → Type} [FloatOps F]

class Facts₀ : Prop where
  bcast_S_S28 : S_.BroadcastsInDim S28 (![] : Fin 0 → Fin S28.rank)
  bcast_S28_S28x1_0 : S28.BroadcastsInDim S28x1 (![0] : Fin 1 → Fin S28x1.rank)
  bcast_S8x28x257x600_S8x28x1x257x600_0_1_3_4 : S8x28x257x600.BroadcastsInDim S8x28x1x257x600 (![0, 1, 3, 4] : Fin 4 → Fin S8x28x1x257x600.rank)
  concatenates_S8x28x1x257x600_S8x28x1x257x600_S8x28x2x257x600_d2 : Shape.Concatenates [S8x28x1x257x600, S8x28x1x257x600] S8x28x2x257x600 2
  shapeCasts_S8x28x2x257x600_S224x2x257x600 : S8x28x2x257x600.ShapeCasts S224x2x257x600
  gather_S8x8x257x600_S28x1_S8x28x257x600_023_1_n_n_1_1_81257600_wf : GatherDims.WF S8x8x257x600 S28x1 S8x28x257x600 [0, 2, 3] [1] [] [1] [] 1 ![8, 1, 257, 600]

variable [Facts₀]

def gather_S8x8x257x600_S28x1_S8x28x257x600_023_1_n_n_1_1_81257600 : GatherDims S8x8x257x600 S28x1 S8x28x257x600 where
  offsetDims := [0, 2, 3]
  collapsedSliceDims := [1]
  operandBatchingDims := []
  startIndicesBatchingDims := []
  startIndexMap := [1]
  indexVectorDim := 1
  sliceSizes := ![8, 1, 257, 600]
  wf := gather_S8x8x257x600_S28x1_S8x28x257x600_023_1_n_n_1_1_81257600_wf

class Facts : Prop extends Facts₀ where

variable [Facts]
-- ==== Proof.BitsEntry.lean ====
/-
  The copy kernel's program up to its one region. The program first writes three constant integer tables of
  224 entries into scalar memory (the batch, the first channel and the second channel of each output row), then
  launches the region, whose two input windows both read the one input array, at the block the tables name.
  Here: what every buffer holds when the region is entered; that the tables then hold their constants, every
  entry below 8, so that every block the index maps name lies inside the [8, 8, 257, 600] array; and the blocks
  the two input windows hold at each grid point.
-/
import proofs.«149601_j9242769622016_1_alg».proof.Proof.Gen.Kernel.Launch
import proofs.«149601_j9242769622016_1_alg».proof.Proof.Gen.Kernel.Skeleton
import Idealize.ShloMosaic.Lib.Pipeline.Frame
import Idealize.ShloMosaic.Lib.Pipeline.FrameBody
import Idealize.ShloMosaic.Lib.StableHlo.Run

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents after the three table constants. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the three constants, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No constant writes the input array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    repeat' apply And.intro
    all_goals exact StableHlo.devRef_ne_of_ne (by decide)))

/-! ## The tables -/

/-- The three tables' contents when the region is entered. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- Each table holds its constant. -/
theorem tbl_0 : tbl m 0 = fun i => lit0 (S224.rowMajor i) := by
  show V m 0 main_c = _
  dsimp only [V, hostOps0]; after_results; rfl
theorem tbl_1 : tbl m 1 = fun i => lit1 (S224.rowMajor i) := by
  show V m 0 main_c_0 = _
  dsimp only [V, hostOps0]; after_results; rfl
theorem tbl_2 : tbl m 2 = fun i => lit2 (S224.rowMajor i) := by
  show V m 0 main_c_1 = _
  dsimp only [V, hostOps0]; after_results; rfl

/-- Every entry of the three constants is below 8: a batch or a channel of the input array. -/
theorem lit_lt : ∀ r : Fin 224, (lit0 r).toNat < 8 ∧ (lit1 r).toNat < 8 ∧ (lit2 r).toNat < 8 := by decide

theorem tbl_0_lt (x) : (tbl m 0 x).toNat < 8 := by rw [tbl_0]; exact (lit_lt _).1
theorem tbl_1_lt (x) : (tbl m 1 x).toNat < 8 := by rw [tbl_1]; exact (lit_lt _).2.1
theorem tbl_2_lt (x) : (tbl m 2 x).toNat < 8 := by rw [tbl_2]; exact (lit_lt _).2.2

/-- The block each input window names, at every grid point, lies inside the input array: its first two
    coordinates are table entries, below 8, and it spans the other two axes whole. -/
theorem ok : ok0 (F := F) (tbl m) := by
  refine ⟨fun i => ?_, fun i => ?_⟩
  · obtain ⟨w, v, hw, hv, e⟩ : ∃ w v : BitVec 32, w.toNat < 8 ∧ v.toNat < 8 ∧
        cc0_transform_0 k0_off1_inb numel1_S1 (tbl m) i = ![w.toNat, v.toNat, 0, 0] :=
      ⟨_, _, tbl_0_lt m _, tbl_1_lt m _, rfl⟩
    refine ⟨fun a => ?_, Or.inl rfl⟩
    rw [e]
    fin_cases a <;> simp [S1x1x257x600, S8x8x257x600] <;> omega
  · obtain ⟨w, v, hw, hv, e⟩ : ∃ w v : BitVec 32, w.toNat < 8 ∧ v.toNat < 8 ∧
        cc0_transform_1 k0_off1_inb numel1_S1 (tbl m) i = ![w.toNat, v.toNat, 0, 0] :=
      ⟨_, _, tbl_0_lt m _, tbl_2_lt m _, rfl⟩
    refine ⟨fun a => ?_, Or.inl rfl⟩
    rw [e]
    fin_cases a <;> simp [S1x1x257x600, S8x8x257x600] <;> omega

/-- The tables as admissible contents, and the pipeline at them. -/
abbrev adm : (pcfg0 (F := F)).Adm := ⟨tbl m, ok m⟩
abbrev cfgM : Pipeline.Cfg sig Λ₀ := cfg0 (adm m)

end Cert.Kernel.Hand

end
-- ==== Proof.BitsBody.lean ====
/-
  The copy kernel's body at one grid point. It loads the first input window's [257, 600] plane and stores it as
  slot 0 of the output block, loads the second window's plane and stores it as slot 1; the two stores tile the
  [1, 2, 257, 600] output block, so what the block holds afterwards does not depend on what it held before.
-/
import proofs.«149601_j9242769622016_1_alg».proof.Proof.BitsEntry
import Idealize.ShloMosaic.Lib.Ring
import Idealize.ShloMosaic.Lib.Tactic

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's staging buffer holds its block at every point, fetched there or not, when the body leaves
    the block in place. -/
theorem before_in0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body on any whole staging memrefs -/

set_option maxHeartbeats 1000000 in
/-- The body's two stores as pieces of the output block (last first), with the run: from the two input buffers at
    `x0`, `x1` and the output buffer at anything, the body ends with the inputs as they were and the output buffer
    with the pieces written. -/
noncomputable def kernelRun (c : Dev nD) (i : grid0.Coords)
    (arg1 : Memref sig .tc .smem S224 .i32) (harg1 : arg1.IsWhole) (arg2 : Memref sig .tc .smem S224 .i32) (harg2 : arg2.IsWhole)
    (arg3 : Memref sig .tc .smem S224 .i32) (harg3 : arg3.IsWhole)
    (arg4 : Memref sig .tc .vmem S1x1x257x600 .f32) (harg4 : arg4.IsWhole) (arg5 : Memref sig .tc .vmem S1x1x257x600 .f32) (harg5 : arg5.IsWhole)
    (arg6 : Memref sig .tc .vmem S1x2x257x600 .f32) (harg6 : arg6.IsWhole)
    (x0 x1 : Vec F S1x1x257x600 .f32) :
    { L : List (View.Piece (Elt F) S1x2x257x600 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc0__copy_pair_kernel i arg1 harg1 arg2 harg2 arg3 harg3 arg4 harg4 arg5 harg5 arg6 harg6) K } := by
  refine ⟨?_, fun E K => ?run⟩
  case run =>
    simp only [cc0__copy_pair_kernel_eq_skeleton]; unfold cc0__copy_pair_kernel_skel
    unfold owns
    iintro ⟨⟨%f0, %hf0, H0⟩, ⟨%f1, %hf1, H1⟩, ⟨%d2, %f2, -, H2⟩, Hk⟩
    obtain rfl := harg4.eq_unread hf0
    obtain rfl := harg5.eq_unread hf1
    sl_exec
    sl_step
    iapply Hk
    isplitl [H0]
    · iexists _; isplitr; · ipureintro; exact harg4.read_unread _
      iexact H0
    isplitl [H1]
    · iexists _; isplitr; · ipureintro; exact harg5.read_unread _
      iexact H1
    iexists _; iexact H2

/-- The two stores tile the output block. -/
theorem cover (c : Dev nD) (i : grid0.Coords)
    (arg1 : Memref sig .tc .smem S224 .i32) (harg1 : arg1.IsWhole) (arg2 : Memref sig .tc .smem S224 .i32) (harg2 : arg2.IsWhole)
    (arg3 : Memref sig .tc .smem S224 .i32) (harg3 : arg3.IsWhole)
    (arg4 : Memref sig .tc .vmem S1x1x257x600 .f32) (harg4 : arg4.IsWhole) (arg5 : Memref sig .tc .vmem S1x1x257x600 .f32) (harg5 : arg5.IsWhole)
    (arg6 : Memref sig .tc .vmem S1x2x257x600 .f32) (harg6 : arg6.IsWhole)
    (x0 x1 : Vec F S1x1x257x600 .f32) (y : S1x2x257x600.Idx) :
    ∃ pc ∈ (kernelRun c i arg1 harg1 arg2 harg2 arg3 harg3 arg4 harg4 arg5 harg5 arg6 harg6 x0 x1).1, y ∈ pc.1.set :=
  View.cover_of_tiledL (kernelRun c i arg1 harg1 arg2 harg2 arg3 harg3 arg4 harg4 arg5 harg5 arg6 harg6 x0 x1).1 S1x1x257x600.size (by sl_kernel_rfl) y

/-- One staging buffer of the output window, through which the block's contents are stated (the choice does not
    matter: the pieces cover). -/
abbrev VO2 : View sig .tc .vmem S1x2x257x600 .f32 := (Memref.whole cc0_stg2_0 : Memref sig .tc .vmem S1x2x257x600 .f32).view

/-- What the body leaves in the output block: its pieces read back. -/
def out2 (c : Dev nD) (i : grid0.Coords)
    (arg1 : Memref sig .tc .smem S224 .i32) (harg1 : arg1.IsWhole) (arg2 : Memref sig .tc .smem S224 .i32) (harg2 : arg2.IsWhole)
    (arg3 : Memref sig .tc .smem S224 .i32) (harg3 : arg3.IsWhole)
    (arg4 : Memref sig .tc .vmem S1x1x257x600 .f32) (harg4 : arg4.IsWhole) (arg5 : Memref sig .tc .vmem S1x1x257x600 .f32) (harg5 : arg5.IsWhole)
    (arg6 : Memref sig .tc .vmem S1x2x257x600 .f32) (harg6 : arg6.IsWhole)
    (x0 x1 : Vec F S1x1x257x600 .f32) : Vec F S1x2x257x600 .f32 :=
  VO2.read (Elt F) (VO2.writes (Elt F) VO2.junk (kernelRun c i arg1 harg1 arg2 harg2 arg3 harg3 arg4 harg4 arg5 harg5 arg6 harg6 x0 x1).1)

/-! ## The point's memrefs -/

abbrev tb0 : Memref sig .tc .smem S224 .i32 := Memref.whole main_c
abbrev tb1 : Memref sig .tc .smem S224 .i32 := Memref.whole main_c_0
abbrev tb2 : Memref sig .tc .smem S224 .i32 := Memref.whole main_c_1
abbrev ms0 (t : Fin (cfgM m).N) : Memref sig .tc .vmem S1x1x257x600 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1x257x600 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x2x257x600 .f32 := spec0_2.stage ((cfgM m).slots t 2)
abbrev hs2 (t : Fin (cfgM m).N) : (ms2 m t).IsWhole := hstage0_2 (((cfgM m).slots t 2).cast nbuf0_2)

/-- The body as the pipeline calls it at point `t`. -/
abbrev bodyAt (t : Fin (cfgM m).N) : Prog (TpuEff nD τ sig (Elt F) Λ₀ .tc) PUnit :=
  cc0__copy_pair_kernel (grid0.coords t) tb0 (Memref.isWhole_whole _) tb1 (Memref.isWhole_whole _) tb2 (Memref.isWhole_whole _)
    (ms0 m t) (hs0 m t) (ms1 m t) (hs1 m t) (ms2 m t) (hs2 m t)

/-- What the output block holds after the body at point `t`. -/
def outAt (c : Dev nD) (t : Fin (cfgM m).N) : Vec F S1x2x257x600 .f32 :=
  out2 c (grid0.coords t) tb0 (Memref.isWhole_whole _) tb1 (Memref.isWhole_whole _) tb2 (Memref.isWhole_whole _)
    (ms0 m t) (hs0 m t) (ms1 m t) (hs1 m t) (ms2 m t) (hs2 m t) (iblk m c 0 t) (iblk m c 1 t)

/-! ## The pipeline's proof data -/

/-- The arrays as the region finds them; after the body each input buffer at its block, the output buffer at
    `outAt`; the invariant: the tables' halves the region lends and the scoped buffers the pipeline does not stage;
    the one input array held by its two windows at complementary halves; nothing owed. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outAt m c t
  Φ _ := iprop(Pipeline.prefHeld pre0 c (fun _ => fullShare.right) (tbl m) ∗ Pipeline.scopedRest spec0 c)
  q w := match w with
    | ⟨0, _⟩ => fullShare.left
    | ⟨1, _⟩ => fullShare.right
    | ⟨2, _⟩ => fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = outAt m c t := by dsimp only [dats]; try rfl

theorem before_0 (c : Dev nD) (t : Fin (cfgM m).N) (d) : (dats m 0 c).before 0 t d = iblk m c 0 t :=
  before_in0 m (dats m 0 c) (A_eq m c 0) (after_0 m c) t d
theorem before_1 (c : Dev nD) (t : Fin (cfgM m).N) (d) : (dats m 0 c).before 1 t d = iblk m c 1 t :=
  before_in1 m (dats m 0 c) (A_eq m c 1) (after_1 m c) t d

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

/-- The body at any point: the input buffers hold their blocks, so the run applies; the invariant passes through
    untouched; nothing is owed throughout. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1]
  rw [show (dats m 0 c).Φ t.succ = (dats m 0 c).Φ t.castSucc from rfl,
    show (dats m 0 c).owesAt () t.succ = (dats m 0 c).owesAt () t.castSucc from rfl,
    after_0, after_1, after_2]
  unfold outAt
  unfold out2
  iintro ⟨HΦ, Ho, ⟨%d0, H0⟩, ⟨%d1, H1⟩, ⟨%d2, H2⟩⟩
  iapply ((kernelRun c (grid0.coords t) tb0 (Memref.isWhole_whole _) tb1 (Memref.isWhole_whole _) tb2 (Memref.isWhole_whole _)
    (ms0 m t) (hs0 m t) (ms1 m t) (hs1 m t) (ms2 m t) (hs2 m t) (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.Kernel.Hand

end
-- ==== Proof.BitsLaunch.lean ====
/-
  The copy kernel's whole run. The region's two input windows read ONE array, so the array, held whole when the
  region is entered, is dealt to the two windows by halves (each window only reads it), and the output array goes
  to its window whole. From the body obligation and this split, every weakly fair execution of the program
  terminates with the output array at what the write-backs of all 224 points leave and the input array unchanged.
-/
import proofs.«149601_j9242769622016_1_alg».proof.Proof.BitsBody

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (pin cells launchToks arrBufs unscopedRestP prefHeld scopedRest)

/-! ## The arrays dealt to the windows -/

/-- The buffers behind the three windows' arrays are two: the input array and the output array. -/
theorem arrImage : Finset.univ.image (Pipeline.arrRef spec0) = {main_arg0, main_v0} := by decide

theorem hsplit (c : Dev nD) :
    (arrBufs (pin pcfgs (fun _ => adm m) (0 : Fin 1)).spec c (V m c) : sProp 𝕄) ⊢ (dats m 0 c).arrays ((dats m 0 c).arrAt · 0) := by
  unfold Dat.arrays arrBufs
  refine BIBase.Entails.trans ?_ (Entails.of_eq (bigSep_congr fun w _ =>
    (by rw [(arr_whole0 w).set_eq_univ] :
      ((((cfgM m).win w).arr.view.loc (c.tc : Thread nD τ) ↦[Finset.univ]{(dats m 0 c).share w} (dats m 0 c).arrAt w 0 : sProp 𝕄))
        = (((cfgM m).win w).arr.view.loc (c.tc : Thread nD τ) ↦[((cfgM m).win w).arr.view.set]{(dats m 0 c).share w} (dats m 0 c).arrAt w 0))))
  rw [bigSep_W0]
  rw [show (Finset.image (Pipeline.arrRef (pin pcfgs (fun _ => adm m) (0 : Fin 1)).spec) Finset.univ) = {main_arg0, main_v0} from arrImage]
  rw [bigSep_insert (by decide), bigSep_singleton]
  refine BIBase.Entails.trans (Entails.of_eq (show _ = iprop((((c.tc : Thread nD τ).loc main_arg0) ↦{fullShare} V m c main_arg0)
    ∗ (((c.tc : Thread nD τ).loc main_v0) ↦{fullShare} V m c main_v0) : sProp 𝕄) from rfl)) ?_
  iintro ⟨HA, HO⟩
  ihave HA := (pointsTo_share (PosShare.mem_left_op_right fullShare)).1 $$ HA
  icases HA with ⟨HA₁, HA₂⟩
  isplitl [HA₁]; · iexact HA₁
  isplitl [HA₂]; · iexact HA₂
  iexact HO

/-! ## The run -/

theorem Phi_eq (c : Dev nD) (t : Fin ((cfgM m).N + 1)) :
    (dats m 0 c).Φ t = iprop(prefHeld (Ix := Unit) (Name := ℕ) (U := UR sig nD τ) (Lvl := ℕ) pre0 c (fun _ => fullShare.right) (tbl m)
      ∗ scopedRest (Ix := Unit) (Name := ℕ) (U := UR sig nD τ) (Lvl := ℕ) spec0 c) := rfl

set_option backward.isDefEq.respectTransparency.types false in
/-- From any memory with zero counters, every weakly fair execution of the program terminates; the output array
    ends at what the write-backs of all the points leave, and the input array is unchanged. -/
theorem run_main : θ_run defs (onTc (τ := τ) (main (F := F))) (s₀ m ρ) (fun r => ∀ c : Dev nD,
      r.2.mem ((c.tc : Thread nD τ).loc main_v0) = (dats m 0 c).arrAt 2 (cfgM m).N
      ∧ r.2.mem ((c.tc : Thread nD τ).loc main_arg0) = m ((c.tc : Thread nD τ).loc main_arg0)) := by
  classical
  exact Pipeline.θ_run_region_noSem_pf pcfgs (fun _ => adm m) (dats m) () (cellOf_inj (fun _ => adm m)) (0 : Fin 1) winFacts₀0 preFacts0 emb₁
    defs₀ Variants.none m ρ main
    (fun c => (body_obligation m c).loose) block_pos0 arr_whole0 stage_whole0 (fun _ _ => rfl)
    (u₀ := initOf (cells (pin pcfgs fun _ => adm m) (cellOf_inj (fun _ => adm m))) (launchToks (pin pcfgs fun _ => adm m) (cellOf_inj (fun _ => adm m))))
    (hu₀ := by
      iintro Hu
      iapply (show (ownU _ : sProp 𝕄) ⊢ BI.own (emb₁ (initOf (cells (pin pcfgs fun _ => adm m) (cellOf_inj (fun _ => adm m))) (launchToks (pin pcfgs fun _ => adm m) (cellOf_inj (fun _ => adm m))))) from .rfl)
      iexact Hu)
    (V := V m) (hmain := hmain m Variants.none) (hsplit := hsplit m) (hpf := V_pre m)
    (X := fun _ => iprop(emp)) (Y := fun _ => iprop(emp))
    (Z := fun c => unscopedRestP (Ix := Unit) (Name := ℕ) (U := UR sig nD τ) (Lvl := ℕ) pre0 spec0 c (V m c))
    (hX := fun c => by
      iintro H
      isplitr; · iempintro
      iexact H)
    (hin := fun c => by
      rw [Phi_eq]
      iintro ⟨-, H⟩
      iexact H)
    (hout := fun c => by
      rw [Phi_eq]
      iintro ⟨-, H⟩
      isplitr; · iempintro
      iexact H)
    (QY := fun _ _ => True)
    (hY := fun c s' => by
      iintro ⟨-, -, HSI⟩
      imodintro
      isplitr; · ipureintro; trivial
      iexact HSI)
    (hQ := fun s h c => ⟨(h c).1 2, ((h c).1 0).trans (((dats m 0 c).arrAt_in 0 rfl _).trans ((A_eq m c 0).trans (V_main_arg0 m c)))⟩)

/-- The frame: the program runs to the end, faults nowhere, and leaves its input array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.Kernel.Hand

end
-- ==== Proof.IdealEntry.lean ====
/-
  The copy kernel's program up to its one region. The program first writes three constant integer tables of
  224 entries into scalar memory (the batch, the first channel and the second channel of each output row), then
  launches the region, whose two input windows both read the one input array, at the block the tables name.
  Here: what every buffer holds when the region is entered; that the tables then hold their constants, every
  entry below 8, so that every block the index maps name lies inside the [8, 8, 257, 600] array; and the blocks
  the two input windows hold at each grid point.
-/
import proofs.«149601_j9242769622016_1_alg».proof.Proof.Gen.KernelIdeal.Launch
import proofs.«149601_j9242769622016_1_alg».proof.Proof.Gen.KernelIdeal.Skeleton
import Idealize.ShloMosaic.Lib.Pipeline.Frame
import Idealize.ShloMosaic.Lib.Pipeline.FrameBody
import Idealize.ShloMosaic.Lib.StableHlo.Run

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The program up to the region -/

/-- What core `c`'s buffers hold when the region is entered: the launch contents after the three table constants. -/
abbrev V (c : Dev nD) (b : Ref sig .tc) : Buf (Elt F) ((c : Thread nD τ).loc b) := StableHlo.after hostOps0 (fun b => m (c, b)) b

theorem hostOps0_fresh : (hostOps0 : List (HloOp τ sig (Elt F))).Forall fun op => op.fresh = ∅ := by
  simp only [List.Forall]; repeat' constructor

/-- The program is the three constants, then the region. -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No constant writes the input array: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.nullary_writes, Finset.mem_singleton]
    repeat' apply And.intro
    all_goals exact StableHlo.devRef_ne_of_ne (by decide)))

/-! ## The tables -/

/-- The three tables' contents when the region is entered. -/
def tbl : pre0.Contents (Elt F) := fun j => V m (0 : Dev nD) (pre0.ref j)

theorem V_pre (c : Dev nD) (j : Fin 3) : V m c (pre0.ref j) = tbl m j := by
  obtain rfl : c = 0 := Subsingleton.elim _ _; rfl

/-- Each table holds its constant. -/
theorem tbl_0 : tbl m 0 = fun i => lit0 (S224.rowMajor i) := by
  show V m 0 main_c = _
  dsimp only [V, hostOps0]; after_results; rfl
theorem tbl_1 : tbl m 1 = fun i => lit1 (S224.rowMajor i) := by
  show V m 0 main_c_0 = _
  dsimp only [V, hostOps0]; after_results; rfl
theorem tbl_2 : tbl m 2 = fun i => lit2 (S224.rowMajor i) := by
  show V m 0 main_c_1 = _
  dsimp only [V, hostOps0]; after_results; rfl

/-- Every entry of the three constants is below 8: a batch or a channel of the input array. -/
theorem lit_lt : ∀ r : Fin 224, (lit0 r).toNat < 8 ∧ (lit1 r).toNat < 8 ∧ (lit2 r).toNat < 8 := by decide

theorem tbl_0_lt (x) : (tbl m 0 x).toNat < 8 := by rw [tbl_0]; exact (lit_lt _).1
theorem tbl_1_lt (x) : (tbl m 1 x).toNat < 8 := by rw [tbl_1]; exact (lit_lt _).2.1
theorem tbl_2_lt (x) : (tbl m 2 x).toNat < 8 := by rw [tbl_2]; exact (lit_lt _).2.2

/-- The block each input window names, at every grid point, lies inside the input array: its first two
    coordinates are table entries, below 8, and it spans the other two axes whole. -/
theorem ok : ok0 (F := F) (tbl m) := by
  refine ⟨fun i => ?_, fun i => ?_⟩
  · obtain ⟨w, v, hw, hv, e⟩ : ∃ w v : BitVec 32, w.toNat < 8 ∧ v.toNat < 8 ∧
        cc0_transform_0 k0_off1_inb numel1_S1 (tbl m) i = ![w.toNat, v.toNat, 0, 0] :=
      ⟨_, _, tbl_0_lt m _, tbl_1_lt m _, rfl⟩
    refine ⟨fun a => ?_, Or.inl rfl⟩
    rw [e]
    fin_cases a <;> simp [S1x1x257x600, S8x8x257x600] <;> omega
  · obtain ⟨w, v, hw, hv, e⟩ : ∃ w v : BitVec 32, w.toNat < 8 ∧ v.toNat < 8 ∧
        cc0_transform_1 k0_off1_inb numel1_S1 (tbl m) i = ![w.toNat, v.toNat, 0, 0] :=
      ⟨_, _, tbl_0_lt m _, tbl_2_lt m _, rfl⟩
    refine ⟨fun a => ?_, Or.inl rfl⟩
    rw [e]
    fin_cases a <;> simp [S1x1x257x600, S8x8x257x600] <;> omega

/-- The tables as admissible contents, and the pipeline at them. -/
abbrev adm : (pcfg0 (F := F)).Adm := ⟨tbl m, ok m⟩
abbrev cfgM : Pipeline.Cfg sig Λ₀ := cfg0 (adm m)

end Cert.KernelIdeal.Hand

end
-- ==== Proof.IdealBody.lean ====
/-
  The copy kernel's body at one grid point. It loads the first input window's [257, 600] plane and stores it as
  slot 0 of the output block, loads the second window's plane and stores it as slot 1; the two stores tile the
  [1, 2, 257, 600] output block, so what the block holds afterwards does not depend on what it held before.
-/
import proofs.«149601_j9242769622016_1_alg».proof.Proof.IdealEntry
import Idealize.ShloMosaic.Lib.Ring
import Idealize.ShloMosaic.Lib.Tactic

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The windows' blocks -/

/-- Window `w`'s block at point `t`, read off its array as the region finds it. -/
def iblk (c : Dev nD) (w : Fin (cfgM m).W) (t : Fin (cfgM m).N) : (((cfgM m).win w).xblock ((cfgM m).grid.coords t)).Idx → Elt F ((cfgM m).win w).elt :=
  (((cfgM m).win w).blk t).view.read (Elt F) (V m c (Pipeline.arrRef spec0 w))

/-- An input window's staging buffer holds its block at every point, fetched there or not, when the body leaves
    the block in place. -/
theorem before_in0 {c : Dev nD} (dat : Dat τ (Elt F) Unit ℕ (UR sig nD τ) ℕ (cfgM m) c) (hA : dat.A 0 = V m c (Pipeline.arrRef spec0 0))
    (hafter : ∀ t, dat.after 0 t = iblk m c 0 t) (t : Fin (cfgM m).N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)

theorem before_in1 {c : Dev nD} (dat : Dat τ (Elt F) Unit ℕ (UR sig nD τ) ℕ (cfgM m) c) (hA : dat.A 1 = V m c (Pipeline.arrRef spec0 1))
    (hafter : ∀ t, dat.after 1 t = iblk m c 1 t) (t : Fin (cfgM m).N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)

/-! ## The body on any whole staging memrefs -/

set_option maxHeartbeats 1000000 in
/-- The body's two stores as pieces of the output block (last first), with the run: from the two input buffers at
    `x0`, `x1` and the output buffer at anything, the body ends with the inputs as they were and the output buffer
    with the pieces written. -/
noncomputable def kernelRun (c : Dev nD) (i : grid0.Coords)
    (arg1 : Memref sig .tc .smem S224 .i32) (harg1 : arg1.IsWhole) (arg2 : Memref sig .tc .smem S224 .i32) (harg2 : arg2.IsWhole)
    (arg3 : Memref sig .tc .smem S224 .i32) (harg3 : arg3.IsWhole)
    (arg4 : Memref sig .tc .vmem S1x1x257x600 .f32) (harg4 : arg4.IsWhole) (arg5 : Memref sig .tc .vmem S1x1x257x600 .f32) (harg5 : arg5.IsWhole)
    (arg6 : Memref sig .tc .vmem S1x2x257x600 .f32) (harg6 : arg6.IsWhole)
    (x0 x1 : Vec F S1x1x257x600 .f32) :
    { L : List (View.Piece (Elt F) S1x2x257x600 .f32) //
      ∀ (E : Set ℕ) (K : PUnit → sProp 𝕄),
        iprop(owns (c : Thread nD τ) arg4 fullShare x0 ∗ owns (c : Thread nD τ) arg5 fullShare x1 ∗ (∃ d, owns (c : Thread nD τ) arg6 fullShare d)
            ∗ (iprop(owns (c : Thread nD τ) arg4 fullShare x0 ∗ owns (c : Thread nD τ) arg5 fullShare x1
                ∗ (∃ f, arg6.view.loc (c : Thread nD τ) ↦[arg6.view.set]{fullShare} arg6.view.writes (Elt F) f L)) -∗ K ⟨⟩))
          ⊢ wp frame (wpE (defs₀ (F := F)) Variants.none c none) E (cc0__copy_pair_kernel i arg1 harg1 arg2 harg2 arg3 harg3 arg4 harg4 arg5 harg5 arg6 harg6) K } := by
  refine ⟨?_, fun E K => ?run⟩
  case run =>
    simp only [cc0__copy_pair_kernel_eq_skeleton]; unfold cc0__copy_pair_kernel_skel
    unfold owns
    iintro ⟨⟨%f0, %hf0, H0⟩, ⟨%f1, %hf1, H1⟩, ⟨%d2, %f2, -, H2⟩, Hk⟩
    obtain rfl := harg4.eq_unread hf0
    obtain rfl := harg5.eq_unread hf1
    sl_exec
    sl_step
    iapply Hk
    isplitl [H0]
    · iexists _; isplitr; · ipureintro; exact harg4.read_unread _
      iexact H0
    isplitl [H1]
    · iexists _; isplitr; · ipureintro; exact harg5.read_unread _
      iexact H1
    iexists _; iexact H2

/-- The two stores tile the output block. -/
theorem cover (c : Dev nD) (i : grid0.Coords)
    (arg1 : Memref sig .tc .smem S224 .i32) (harg1 : arg1.IsWhole) (arg2 : Memref sig .tc .smem S224 .i32) (harg2 : arg2.IsWhole)
    (arg3 : Memref sig .tc .smem S224 .i32) (harg3 : arg3.IsWhole)
    (arg4 : Memref sig .tc .vmem S1x1x257x600 .f32) (harg4 : arg4.IsWhole) (arg5 : Memref sig .tc .vmem S1x1x257x600 .f32) (harg5 : arg5.IsWhole)
    (arg6 : Memref sig .tc .vmem S1x2x257x600 .f32) (harg6 : arg6.IsWhole)
    (x0 x1 : Vec F S1x1x257x600 .f32) (y : S1x2x257x600.Idx) :
    ∃ pc ∈ (kernelRun c i arg1 harg1 arg2 harg2 arg3 harg3 arg4 harg4 arg5 harg5 arg6 harg6 x0 x1).1, y ∈ pc.1.set :=
  View.cover_of_tiledL (kernelRun c i arg1 harg1 arg2 harg2 arg3 harg3 arg4 harg4 arg5 harg5 arg6 harg6 x0 x1).1 S1x1x257x600.size (by sl_kernel_rfl) y

/-- One staging buffer of the output window, through which the block's contents are stated (the choice does not
    matter: the pieces cover). -/
abbrev VO2 : View sig .tc .vmem S1x2x257x600 .f32 := (Memref.whole cc0_stg2_0 : Memref sig .tc .vmem S1x2x257x600 .f32).view

/-- What the body leaves in the output block: its pieces read back. -/
def out2 (c : Dev nD) (i : grid0.Coords)
    (arg1 : Memref sig .tc .smem S224 .i32) (harg1 : arg1.IsWhole) (arg2 : Memref sig .tc .smem S224 .i32) (harg2 : arg2.IsWhole)
    (arg3 : Memref sig .tc .smem S224 .i32) (harg3 : arg3.IsWhole)
    (arg4 : Memref sig .tc .vmem S1x1x257x600 .f32) (harg4 : arg4.IsWhole) (arg5 : Memref sig .tc .vmem S1x1x257x600 .f32) (harg5 : arg5.IsWhole)
    (arg6 : Memref sig .tc .vmem S1x2x257x600 .f32) (harg6 : arg6.IsWhole)
    (x0 x1 : Vec F S1x1x257x600 .f32) : Vec F S1x2x257x600 .f32 :=
  VO2.read (Elt F) (VO2.writes (Elt F) VO2.junk (kernelRun c i arg1 harg1 arg2 harg2 arg3 harg3 arg4 harg4 arg5 harg5 arg6 harg6 x0 x1).1)

/-! ## The point's memrefs -/

abbrev tb0 : Memref sig .tc .smem S224 .i32 := Memref.whole main_c
abbrev tb1 : Memref sig .tc .smem S224 .i32 := Memref.whole main_c_0
abbrev tb2 : Memref sig .tc .smem S224 .i32 := Memref.whole main_c_1
abbrev ms0 (t : Fin (cfgM m).N) : Memref sig .tc .vmem S1x1x257x600 .f32 := spec0_0.stage ((cfgM m).slots t 0)
abbrev hs0 (t : Fin (cfgM m).N) : (ms0 m t).IsWhole := hstage0_0 (((cfgM m).slots t 0).cast nbuf0_0)
abbrev ms1 (t : Fin (cfgM m).N) : Memref sig .tc .vmem S1x1x257x600 .f32 := spec0_1.stage ((cfgM m).slots t 1)
abbrev hs1 (t : Fin (cfgM m).N) : (ms1 m t).IsWhole := hstage0_1 (((cfgM m).slots t 1).cast nbuf0_1)
abbrev ms2 (t : Fin (cfgM m).N) : Memref sig .tc .vmem S1x2x257x600 .f32 := spec0_2.stage ((cfgM m).slots t 2)
abbrev hs2 (t : Fin (cfgM m).N) : (ms2 m t).IsWhole := hstage0_2 (((cfgM m).slots t 2).cast nbuf0_2)

/-- The body as the pipeline calls it at point `t`. -/
abbrev bodyAt (t : Fin (cfgM m).N) : Prog (TpuEff nD τ sig (Elt F) Λ₀ .tc) PUnit :=
  cc0__copy_pair_kernel (grid0.coords t) tb0 (Memref.isWhole_whole _) tb1 (Memref.isWhole_whole _) tb2 (Memref.isWhole_whole _)
    (ms0 m t) (hs0 m t) (ms1 m t) (hs1 m t) (ms2 m t) (hs2 m t)

/-- What the output block holds after the body at point `t`. -/
def outAt (c : Dev nD) (t : Fin (cfgM m).N) : Vec F S1x2x257x600 .f32 :=
  out2 c (grid0.coords t) tb0 (Memref.isWhole_whole _) tb1 (Memref.isWhole_whole _) tb2 (Memref.isWhole_whole _)
    (ms0 m t) (hs0 m t) (ms1 m t) (hs1 m t) (ms2 m t) (hs2 m t) (iblk m c 0 t) (iblk m c 1 t)

/-! ## The pipeline's proof data -/

/-- The arrays as the region finds them; after the body each input buffer at its block, the output buffer at
    `outAt`; the invariant: the tables' halves the region lends and the scoped buffers the pipeline does not stage;
    the one input array held by its two windows at complementary halves; nothing owed. -/
def dats (_ : Fin 1) (c : Dev nD) : Dat τ (Elt F) Unit ℕ (UR sig nD τ) ℕ (cfgM m) c where
  A w := V m c (Pipeline.arrRef spec0 w)
  after w t := match w with
    | ⟨0, _⟩ => iblk m c 0 t
    | ⟨1, _⟩ => iblk m c 1 t
    | ⟨2, _⟩ => outAt m c t
  Φ _ := iprop(Pipeline.prefHeld pre0 c (fun _ => fullShare.right) (tbl m) ∗ Pipeline.scopedRest spec0 c)
  q w := match w with
    | ⟨0, _⟩ => fullShare.left
    | ⟨1, _⟩ => fullShare.right
    | ⟨2, _⟩ => fullShare
  owed _ := 0

theorem A_eq (c : Dev nD) (w : Fin (cfgM m).W) : (dats m 0 c).A w = V m c (Pipeline.arrRef spec0 w) := by
  dsimp only [dats]

theorem after_0 (c : Dev nD) (t : Fin (cfgM m).N) : (dats m 0 c).after 0 t = iblk m c 0 t := by dsimp only [dats]; try rfl
theorem after_1 (c : Dev nD) (t : Fin (cfgM m).N) : (dats m 0 c).after 1 t = iblk m c 1 t := by dsimp only [dats]; try rfl
theorem after_2 (c : Dev nD) (t : Fin (cfgM m).N) : (dats m 0 c).after 2 t = outAt m c t := by dsimp only [dats]; try rfl

theorem before_0 (c : Dev nD) (t : Fin (cfgM m).N) (d) : (dats m 0 c).before 0 t d = iblk m c 0 t :=
  before_in0 m (dats m 0 c) (A_eq m c 0) (after_0 m c) t d
theorem before_1 (c : Dev nD) (t : Fin (cfgM m).N) (d) : (dats m 0 c).before 1 t d = iblk m c 1 t :=
  before_in1 m (dats m 0 c) (A_eq m c 1) (after_1 m c) t d

/-! ## The body obligation -/

def bodyPre (c : Dev nD) (t : Fin (cfgM m).N) : sProp 𝕄 :=
  iprop((dats m 0 c).Φ t.castSucc ∗ (dats m 0 c).owesAt () t.castSucc
    ∗ (∃ d, owns (c : Thread nD τ) (ms0 m t) fullShare ((dats m 0 c).before 0 t d))
    ∗ (∃ d, owns (c : Thread nD τ) (ms1 m t) fullShare ((dats m 0 c).before 1 t d))
    ∗ (∃ d, owns (c : Thread nD τ) (ms2 m t) fullShare ((dats m 0 c).before 2 t d)))

def bodyPost (c : Dev nD) (t : Fin (cfgM m).N) : sProp 𝕄 :=
  iprop((dats m 0 c).Φ t.succ ∗ (dats m 0 c).owesAt () t.succ
    ∗ owns (c : Thread nD τ) (ms0 m t) fullShare ((dats m 0 c).after 0 t)
    ∗ owns (c : Thread nD τ) (ms1 m t) fullShare ((dats m 0 c).after 1 t)
    ∗ owns (c : Thread nD τ) (ms2 m t) fullShare ((dats m 0 c).after 2 t))

/-- The body at any point: the input buffers hold their blocks, so the run applies; the invariant passes through
    untouched; nothing is owed throughout. -/
theorem sound_body (c : Dev nD) (t : Fin (cfgM m).N) :
    bodyPre m c t ⊢ wp frame (wpE (defs₀ (F := F)) Variants.none c none) Set.univ (bodyAt m t) (fun _ => bodyPost m c t) := by
  unfold bodyPre bodyPost bodyAt
  simp only [before_0, before_1]
  rw [show (dats m 0 c).Φ t.succ = (dats m 0 c).Φ t.castSucc from rfl,
    show (dats m 0 c).owesAt () t.succ = (dats m 0 c).owesAt () t.castSucc from rfl,
    after_0, after_1, after_2]
  unfold outAt
  unfold out2
  iintro ⟨HΦ, Ho, ⟨%d0, H0⟩, ⟨%d1, H1⟩, ⟨%d2, H2⟩⟩
  iapply ((kernelRun c (grid0.coords t) tb0 (Memref.isWhole_whole _) tb1 (Memref.isWhole_whole _) tb2 (Memref.isWhole_whole _)
    (ms0 m t) (hs0 m t) (ms1 m t) (hs1 m t) (ms2 m t) (hs2 m t) (iblk m c 0 t) (iblk m c 1 t)).2 Set.univ _)
  isplitl [H0]; · iexact H0
  isplitl [H1]; · iexact H1
  isplitl [H2]; · iexists _; iexact H2
  iintro ⟨H0, H1, ⟨%e2, H2⟩⟩
  isplitl [HΦ]; · iexact HΦ
  isplitl [Ho]; · iexact Ho
  isplitl [H0]; · iexact H0
  isplitl [H1]; · iexact H1
  unfold owns; iexists _; isplitr
  swap; · iexact H2
  ipureintro; exact View.read_writes_of_cover _ _ _ _ _ (cover c _ _ _ _ _ _ _ _ _ _ _ _ _ _ _)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.IdealLaunch.lean ====
/-
  The copy kernel's whole run. The region's two input windows read ONE array, so the array, held whole when the
  region is entered, is dealt to the two windows by halves (each window only reads it), and the output array goes
  to its window whole. From the body obligation and this split, every weakly fair execution of the program
  terminates with the output array at what the write-backs of all 224 points leave and the input array unchanged.
-/
import proofs.«149601_j9242769622016_1_alg».proof.Proof.IdealBody

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

open Idealize.ShloMosaic.Pipeline (pin cells launchToks arrBufs unscopedRestP prefHeld scopedRest)

/-! ## The arrays dealt to the windows -/

/-- The buffers behind the three windows' arrays are two: the input array and the output array. -/
theorem arrImage : Finset.univ.image (Pipeline.arrRef spec0) = {main_arg0, main_v0} := by decide

theorem hsplit (c : Dev nD) :
    (arrBufs (pin pcfgs (fun _ => adm m) (0 : Fin 1)).spec c (V m c) : sProp 𝕄) ⊢ (dats m 0 c).arrays ((dats m 0 c).arrAt · 0) := by
  unfold Dat.arrays arrBufs
  refine BIBase.Entails.trans ?_ (Entails.of_eq (bigSep_congr fun w _ =>
    (by rw [(arr_whole0 w).set_eq_univ] :
      ((((cfgM m).win w).arr.view.loc (c.tc : Thread nD τ) ↦[Finset.univ]{(dats m 0 c).share w} (dats m 0 c).arrAt w 0 : sProp 𝕄))
        = (((cfgM m).win w).arr.view.loc (c.tc : Thread nD τ) ↦[((cfgM m).win w).arr.view.set]{(dats m 0 c).share w} (dats m 0 c).arrAt w 0))))
  rw [bigSep_W0]
  rw [show (Finset.image (Pipeline.arrRef (pin pcfgs (fun _ => adm m) (0 : Fin 1)).spec) Finset.univ) = {main_arg0, main_v0} from arrImage]
  rw [bigSep_insert (by decide), bigSep_singleton]
  refine BIBase.Entails.trans (Entails.of_eq (show _ = iprop((((c.tc : Thread nD τ).loc main_arg0) ↦{fullShare} V m c main_arg0)
    ∗ (((c.tc : Thread nD τ).loc main_v0) ↦{fullShare} V m c main_v0) : sProp 𝕄) from rfl)) ?_
  iintro ⟨HA, HO⟩
  ihave HA := (pointsTo_share (PosShare.mem_left_op_right fullShare)).1 $$ HA
  icases HA with ⟨HA₁, HA₂⟩
  isplitl [HA₁]; · iexact HA₁
  isplitl [HA₂]; · iexact HA₂
  iexact HO

/-! ## The run -/

theorem Phi_eq (c : Dev nD) (t : Fin ((cfgM m).N + 1)) :
    (dats m 0 c).Φ t = iprop(prefHeld (Ix := Unit) (Name := ℕ) (U := UR sig nD τ) (Lvl := ℕ) pre0 c (fun _ => fullShare.right) (tbl m)
      ∗ scopedRest (Ix := Unit) (Name := ℕ) (U := UR sig nD τ) (Lvl := ℕ) spec0 c) := rfl

set_option backward.isDefEq.respectTransparency.types false in
/-- From any memory with zero counters, every weakly fair execution of the program terminates; the output array
    ends at what the write-backs of all the points leave, and the input array is unchanged. -/
theorem run_main : θ_run defs (onTc (τ := τ) (main (F := F))) (s₀ m ρ) (fun r => ∀ c : Dev nD,
      r.2.mem ((c.tc : Thread nD τ).loc main_v0) = (dats m 0 c).arrAt 2 (cfgM m).N
      ∧ r.2.mem ((c.tc : Thread nD τ).loc main_arg0) = m ((c.tc : Thread nD τ).loc main_arg0)) := by
  classical
  exact Pipeline.θ_run_region_noSem_pf pcfgs (fun _ => adm m) (dats m) () (cellOf_inj (fun _ => adm m)) (0 : Fin 1) winFacts₀0 preFacts0 emb₁
    defs₀ Variants.none m ρ main
    (fun c => (body_obligation m c).loose) block_pos0 arr_whole0 stage_whole0 (fun _ _ => rfl)
    (u₀ := initOf (cells (pin pcfgs fun _ => adm m) (cellOf_inj (fun _ => adm m))) (launchToks (pin pcfgs fun _ => adm m) (cellOf_inj (fun _ => adm m))))
    (hu₀ := by
      iintro Hu
      iapply (show (ownU _ : sProp 𝕄) ⊢ BI.own (emb₁ (initOf (cells (pin pcfgs fun _ => adm m) (cellOf_inj (fun _ => adm m))) (launchToks (pin pcfgs fun _ => adm m) (cellOf_inj (fun _ => adm m))))) from .rfl)
      iexact Hu)
    (V := V m) (hmain := hmain m Variants.none) (hsplit := hsplit m) (hpf := V_pre m)
    (X := fun _ => iprop(emp)) (Y := fun _ => iprop(emp))
    (Z := fun c => unscopedRestP (Ix := Unit) (Name := ℕ) (U := UR sig nD τ) (Lvl := ℕ) pre0 spec0 c (V m c))
    (hX := fun c => by
      iintro H
      isplitr; · iempintro
      iexact H)
    (hin := fun c => by
      rw [Phi_eq]
      iintro ⟨-, H⟩
      iexact H)
    (hout := fun c => by
      rw [Phi_eq]
      iintro ⟨-, H⟩
      isplitr; · iempintro
      iexact H)
    (QY := fun _ _ => True)
    (hY := fun c s' => by
      iintro ⟨-, -, HSI⟩
      imodintro
      isplitr; · ipureintro; trivial
      iexact HSI)
    (hQ := fun s h c => ⟨(h c).1 2, ((h c).1 0).trans (((dats m 0 c).arrAt_in 0 rfl _).trans ((A_eq m c 0).trans (V_main_arg0 m c)))⟩)

/-- The frame: the program runs to the end, faults nowhere, and leaves its input array unchanged. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)) :=
  (θ_run defs _ _).mono (fun _ h c => (h c).2) (run_main m ρ)

end Cert.KernelIdeal.Hand

end
-- ==== Proof.Spec.lean ====
/-
  The function both programs compute. The input is an [8, 8, 257, 600] array (batch, channel, frequency, time);
  the output is [224, 2, 257, 600]: row r = 28·b + p of the output holds, for batch b and the p-th pair (i, j),
  i < j, of the eight channels (pairs listed in row-major upper-triangular order), plane i of batch b in slot 0
  and plane j in slot 1. No arithmetic is done on the entries: the result is a re-indexing of the input.
-/
import Idealize.ShloMosaic.Lib.ValueIdx

namespace Cert.Spec

open Idealize.ShloMosaic Idealize.ShloMosaic.ValueIdx

/-- The smaller channel of the p-th pair. -/
def pairLo : Fin 28 → Fin 8 :=
  ![0, 0, 0, 0, 0, 0, 0, 1, 1, 1, 1, 1, 1, 2, 2, 2, 2, 2, 3, 3, 3, 3, 4, 4, 4, 5, 5, 6]

/-- The larger channel of the p-th pair. -/
def pairHi : Fin 28 → Fin 8 :=
  ![1, 2, 3, 4, 5, 6, 7, 2, 3, 4, 5, 6, 7, 3, 4, 5, 6, 7, 4, 5, 6, 7, 5, 6, 7, 6, 7, 7]

abbrev SIn : Shape := ⟨4, ![8, 8, 257, 600]⟩
abbrev SOut : Shape := ⟨4, ![224, 2, 257, 600]⟩

/-- The batch of output row r. -/
def rowBatch (r : Fin 224) : Fin 8 := ⟨r.val / 28, by have := r.isLt; omega⟩
/-- The pair of output row r. -/
def rowPair (r : Fin 224) : Fin 28 := ⟨r.val % 28, Nat.mod_lt _ (by decide)⟩
/-- The channel that slot s of output row r copies. -/
def rowChan (r : Fin 224) (s : Fin 2) : Fin 8 := if s.val = 0 then pairLo (rowPair r) else pairHi (rowPair r)

/-- The result as one function of the input array, index by index. -/
def G {α : Type} (x : SIn.Idx → α) : SOut.Idx → α := fun j =>
  x (ix4 (rowBatch (j 0)) (rowChan (j 0) (j 1)) (j 2) (j 3))

theorem G_apply {α : Type} (x : SIn.Idx → α) (r : Fin 224) (s : Fin 2) (f : Fin 257) (t : Fin 600) :
    G x (ix4 r s f t) = x (ix4 (rowBatch r) (rowChan r s) f t) := rfl

end Cert.Spec
-- ==== Proof.IdealValue.lean ====
/-
  The copy kernel's output array after its region, as one function of the input array.

  At grid point t the output window's block is row t of the [224, 2, 257, 600] array. The body stores the first
  input window's plane as slot 0 of that block and the second's as slot 1. The first window's block is plane
  (b, i) of the [8, 8, 257, 600] input and the second's plane (b, j), where b, i, j are the three tables' words at
  t: the batch t / 28 and the smaller and the larger channel of pair t % 28. So point t writes back exactly block
  t of the result function `Cert.Spec.G` of the input array; every point writes its block back, and the 224
  blocks cover the array: after the region the array is `Cert.Spec.G` of the input.
-/
import proofs.«149601_j9242769622016_1_alg».proof.Proof.IdealBody
import proofs.«149601_j9242769622016_1_alg».proof.Proof.Spec
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic Idealize.ShloMosaic.ValueIdx
open Idealize.SL.Sem
open Idealize.ShloMosaic.Pipeline (Dat Cfg Window)
open Cert.Spec (rowBatch rowPair rowChan pairLo pairHi)

variable {F : FTy → Type} [FloatOps F]

variable (m : (ℓ : Loc nD τ sig) → Buf (Elt F) ℓ)

/-! ## The three constants, entry by entry -/

/-- The three constants, entry by entry: row r's batch, and the smaller and the larger channel of its pair. -/
theorem lit_rows : ∀ r : Fin 224, (lit0 r).toNat = r.val / 28 ∧ (lit1 r).toNat = (pairLo (rowPair r)).val ∧ (lit2 r).toNat = (pairHi (rowPair r)).val := by decide

/-! ## The index maps

Each input window's block index at point t is (table word, table word, 0, 0) with the words read at row t; the
output window's is (t, 0, 0, 0). Stated with the tables' contents a variable. -/

/-- The row the index maps read at point t is t. -/
theorem coords_val : ∀ t : Fin grid0.N, (Scalar.indexCast (BitVec.ofNat 32 (grid0.coords t 0).val)).toNat = t.val := by decide

/-- A table's word under the one-element rectangle at offset n is its entry n. -/
theorem at_row0 (pf : pre0.Contents (Elt F)) (n : Nat) (inb) (h1) (r : Fin 224) (hr : n = r.val) :
    pf.at 0 (Rect.unit (s := S224) ![n] S1.size inb) h1 = pf 0 (ix1 r) := by
  subst hr
  show pf 0 _ = pf 0 _
  refine congrArg (pf 0) (funext fun a => Fin.ext ?_)
  match a with
  | ⟨0, _⟩ => show r.val + 1 * 0 = r.val; omega

theorem at_row1 (pf : pre0.Contents (Elt F)) (n : Nat) (inb) (h1) (r : Fin 224) (hr : n = r.val) :
    pf.at 1 (Rect.unit (s := S224) ![n] S1.size inb) h1 = pf 1 (ix1 r) := by
  subst hr
  show pf 1 _ = pf 1 _
  refine congrArg (pf 1) (funext fun a => Fin.ext ?_)
  match a with
  | ⟨0, _⟩ => show r.val + 1 * 0 = r.val; omega

theorem at_row2 (pf : pre0.Contents (Elt F)) (n : Nat) (inb) (h1) (r : Fin 224) (hr : n = r.val) :
    pf.at 2 (Rect.unit (s := S224) ![n] S1.size inb) h1 = pf 2 (ix1 r) := by
  subst hr
  show pf 2 _ = pf 2 _
  refine congrArg (pf 2) (funext fun a => Fin.ext ?_)
  match a with
  | ⟨0, _⟩ => show r.val + 1 * 0 = r.val; omega

/-- The first input window's block index at point t: (first table's word, second table's word, 0, 0) at row t. -/
theorem transform0_eq (pf : pre0.Contents (Elt F)) (t : Fin grid0.N) (r : Fin 224) (hr : r.val = t.val) :
    cc0_transform_0 k0_off1_inb numel1_S1 pf (grid0.coords t) = ![(pf 0 (ix1 r)).toNat, (pf 1 (ix1 r)).toNat, 0, 0] := by
  have h := (coords_val t).trans hr.symm
  funext a
  match a with
  | ⟨0, _⟩ => exact congrArg BitVec.toNat (at_row0 pf _ _ _ r h)
  | ⟨1, _⟩ => exact congrArg BitVec.toNat (at_row1 pf _ _ _ r h)
  | ⟨2, _⟩ => rfl
  | ⟨3, _⟩ => rfl

/-- The second input window's: (first table's word, third table's word, 0, 0) at row t. -/
theorem transform1_eq (pf : pre0.Contents (Elt F)) (t : Fin grid0.N) (r : Fin 224) (hr : r.val = t.val) :
    cc0_transform_1 k0_off1_inb numel1_S1 pf (grid0.coords t) = ![(pf 0 (ix1 r)).toNat, (pf 2 (ix1 r)).toNat, 0, 0] := by
  have h := (coords_val t).trans hr.symm
  funext a
  match a with
  | ⟨0, _⟩ => exact congrArg BitVec.toNat (at_row0 pf _ _ _ r h)
  | ⟨1, _⟩ => exact congrArg BitVec.toNat (at_row2 pf _ _ _ r h)
  | ⟨2, _⟩ => rfl
  | ⟨3, _⟩ => rfl

/-- The output window's block index at point t is (t, 0, 0, 0). -/
theorem transform2_eq : ∀ t : Fin grid0.N, cc0_transform_2 (grid0.coords t) = ![t.val, 0, 0, 0] := by decide

theorem index0 (a : (pcfg0 (F := F)).Adm) (t : Fin grid0.N) : ((cfg0 a).win 0).index t = cc0_transform_0 k0_off1_inb numel1_S1 a.1 (grid0.coords t) := rfl
theorem index1 (a : (pcfg0 (F := F)).Adm) (t : Fin grid0.N) : ((cfg0 a).win 1).index t = cc0_transform_1 k0_off1_inb numel1_S1 a.1 (grid0.coords t) := rfl
theorem index2 (a : (pcfg0 (F := F)).Adm) (t : Fin grid0.N) : ((cfg0 a).win 2).index t = cc0_transform_2 (grid0.coords t) := rfl

/-- The output window's block index changes at every point: every point writes its block back. -/
theorem flush_all : ∀ t : Fin grid0.N, Pipeline.Window.flushOf grid0 true cc0_transform_2 t = true := by decide +kernel

theorem flush2 (a : (pcfg0 (F := F)).Adm) (t : Fin (cfg0 a).N) : ((cfg0 a).win 2).flush t = true := flush_all t

/-! ## The body's two stores -/

theorem hz4 : (![0, 0, 0, 0] : Fin 4 → Nat) = fun _ => 0 := funext fun a => by fin_cases a <;> rfl

/-- A stored plane is the loaded one: the reshape to [257, 600] and back is the identity. -/
theorem pay1_read (M : Memref sig .tc .vmem S1x1x257x600 .f32) (h : M.IsWhole) (x : Vec F S1x1x257x600 .f32) :
    k0_pay1 (View.readAt (Elt F) M.view (Rect.unit (s := S1x1x257x600) ![0, 0, 0, 0] S1x1x257x600.size inb_S1x1x257x600_S1x1x257x600_0_0_0_0).toLoadRect (h.unread x)) = x := by
  unfold k0_pay1
  rw [View.readAt_eq_ld, h.read_unread, View.ld_unit_zero (S := S1x1x257x600) hz4]
  exact shapeCast_shapeCast _ _ _

theorem pay2_read (M : Memref sig .tc .vmem S1x1x257x600 .f32) (h : M.IsWhole) (x : Vec F S1x1x257x600 .f32) :
    k0_pay2 (View.readAt (Elt F) M.view (Rect.unit (s := S1x1x257x600) ![0, 0, 0, 0] S1x1x257x600.size inb_S1x1x257x600_S1x1x257x600_0_0_0_0).toLoadRect (h.unread x)) = x := by
  unfold k0_pay2
  rw [View.readAt_eq_ld, h.read_unread, View.ld_unit_zero (S := S1x1x257x600) hz4]
  exact shapeCast_shapeCast _ _ _

/-- The two slots of the [1, 2, 257, 600] output block, as rectangles of it. -/
abbrev slot0 : Rect S1x2x257x600 := Rect.unit ![0, 0, 0, 0] S1x1x257x600.size inb_S1x2x257x600_S1x1x257x600_0_0_0_0
abbrev slot1 : Rect S1x2x257x600 := Rect.unit ![0, 1, 0, 0] S1x1x257x600.size inb_S1x2x257x600_S1x1x257x600_0_1_0_0

/-- Two planes stored as the two slots of a [1, 2, 257, 600] block tile it: the block is any function whose two
    slots are the planes. -/
theorem canon2_eq (x0 x1 : Vec F S1x1x257x600 .f32) (Gb : S1x2x257x600.Idx → Elt F .f32)
    (hlo : ∀ x, x0 x = Gb (slot0.emb x)) (hhi : ∀ x, x1 x = Gb (slot1.emb x)) :
    View.canon [(⟨slot1, x1⟩ : View.Piece (Elt F) S1x2x257x600 .f32), ⟨slot0, x0⟩] = Gb := by
  funext y
  refine View.canon_apply_of_pieces Gb _ (fun p hp => ?_) y ?_
  · rcases List.mem_cons.mp hp with rfl | hp
    · exact hhi
    · rcases List.mem_cons.mp hp with rfl | hp
      · exact hlo
      · exact absurd hp List.not_mem_nil
  · have y0 : (y 0).val < 1 := (y 0).isLt
    have y1 : (y 1).val < 2 := (y 1).isLt
    have y2 : (y 2).val < 257 := (y 2).isLt
    have y3 : (y 3).val < 600 := (y 3).isLt
    by_cases hs : (y 1).val = 0
    · refine ⟨⟨slot0, x0⟩, List.mem_cons_of_mem _ List.mem_cons_self, ?_⟩
      show y ∈ slot0.set
      rw [Rect.mem_set_unit]
      intro a
      match a with
      | ⟨0, _⟩ => exact ⟨Nat.zero_le _, (by show (y 0).val < 0 + 1; omega)⟩
      | ⟨1, _⟩ => exact ⟨Nat.zero_le _, (by show (y 1).val < 0 + 1; omega)⟩
      | ⟨2, _⟩ => exact ⟨Nat.zero_le _, (by show (y 2).val < 0 + 257; omega)⟩
      | ⟨3, _⟩ => exact ⟨Nat.zero_le _, (by show (y 3).val < 0 + 600; omega)⟩
    · refine ⟨⟨slot1, x1⟩, List.mem_cons_self, ?_⟩
      show y ∈ slot1.set
      rw [Rect.mem_set_unit]
      intro a
      match a with
      | ⟨0, _⟩ => exact ⟨Nat.zero_le _, (by show (y 0).val < 0 + 1; omega)⟩
      | ⟨1, _⟩ => exact ⟨(by show 1 ≤ (y 1).val; omega), (by show (y 1).val < 1 + 1; omega)⟩
      | ⟨2, _⟩ => exact ⟨Nat.zero_le _, (by show (y 2).val < 0 + 257; omega)⟩
      | ⟨3, _⟩ => exact ⟨Nat.zero_le _, (by show (y 3).val < 0 + 600; omega)⟩

/-- What the body leaves in the output block: the second window's plane over slot 1, the first window's over slot 0. -/
theorem out2_eq (c : Dev nD) (i : grid0.Coords)
    (arg1 : Memref sig .tc .smem S224 .i32) (harg1 : arg1.IsWhole) (arg2 : Memref sig .tc .smem S224 .i32) (harg2 : arg2.IsWhole)
    (arg3 : Memref sig .tc .smem S224 .i32) (harg3 : arg3.IsWhole)
    (arg4 : Memref sig .tc .vmem S1x1x257x600 .f32) (harg4 : arg4.IsWhole) (arg5 : Memref sig .tc .vmem S1x1x257x600 .f32) (harg5 : arg5.IsWhole)
    (arg6 : Memref sig .tc .vmem S1x2x257x600 .f32) (harg6 : arg6.IsWhole)
    (x0 x1 : Vec F S1x1x257x600 .f32) :
    out2 c i arg1 harg1 arg2 harg2 arg3 harg3 arg4 harg4 arg5 harg5 arg6 harg6 x0 x1
      = View.canon [(⟨slot1, x1⟩ : View.Piece (Elt F) S1x2x257x600 .f32), ⟨slot0, x0⟩] := by
  unfold out2
  rw [View.read_writes_junk_eq_canon]
  unfold kernelRun
  dsimp only
  rw [pay1_read, pay2_read]

/-! ## The result function at an index -/

/-- The result function at an index whose row is known. -/
theorem G_at {α : Type} (X : Cert.Spec.SIn.Idx → α) (j : Cert.Spec.SOut.Idx) (k : Cert.Spec.SIn.Idx) (r : Fin 224) (hr : (j 0).val = r.val)
    (h0 : (k 0).val = r.val / 28)
    (h1 : (k 1).val = if (j 1).val = 0 then (pairLo (rowPair r)).val else (pairHi (rowPair r)).val)
    (h2 : (k 2).val = (j 2).val) (h3 : (k 3).val = (j 3).val) : Cert.Spec.G X j = X k := by
  have e : j 0 = r := Fin.ext hr
  unfold Cert.Spec.G
  refine congrArg X (funext fun a => Fin.ext ?_)
  match a with
  | ⟨0, _⟩ => show (j 0).val / 28 = (k 0).val; rw [hr, h0]
  | ⟨1, _⟩ =>
    show (rowChan (j 0) (j 1)).val = (k 1).val
    rw [h1, e]; unfold rowChan
    by_cases hs : (j 1).val = 0
    · rw [if_pos hs, if_pos hs]
    · rw [if_neg hs, if_neg hs]
  | ⟨2, _⟩ => exact h2.symm
  | ⟨3, _⟩ => exact h3.symm

/-! ## Each input block is a slot of block t of the result function

Over any contents of the tables whose words at row t are the batch t / 28 and a channel of pair t % 28, and any
input array: an element of the input window's block at point t is the element of block t of the result function
under the slot's rectangle. A block's coordinate on an axis is its index times its size plus the coordinate inside
the block. -/

theorem lo_piece (a : (pcfg0 (F := F)).Adm) (X : S8x8x257x600.Idx → Elt F .f32) (t : Fin grid0.N) (r : Fin 224) (hr : r.val = t.val)
    (h0 : (a.1 0 (ix1 r)).toNat = r.val / 28) (h1 : (a.1 1 (ix1 r)).toNat = (pairLo (rowPair r)).val)
    (x : S1x1x257x600.Idx) :
    (((cfg0 a).win 0).blk t).view.read (Elt F) X x
      = (((cfg0 a).win 2).blk t).view.read (Elt F) (Cert.Spec.G X)
          (slot0.emb x) := by
  have i0 : ((cfg0 a).win 0).index t = ![(a.1 0 (ix1 r)).toNat, (a.1 1 (ix1 r)).toNat, 0, 0] := (index0 a t).trans (transform0_eq a.1 t r hr)
  have i2 : ((cfg0 a).win 2).index t = ![t.val, 0, 0, 0] := (index2 a t).trans (transform2_eq t)
  have i00 : ((cfg0 a).win 0).index t (0 : Fin 4) = (a.1 0 (ix1 r)).toNat := congrFun i0 (0 : Fin 4)
  have i01 : ((cfg0 a).win 0).index t (1 : Fin 4) = (a.1 1 (ix1 r)).toNat := congrFun i0 (1 : Fin 4)
  have i02 : ((cfg0 a).win 0).index t (2 : Fin 4) = 0 := congrFun i0 (2 : Fin 4)
  have i03 : ((cfg0 a).win 0).index t (3 : Fin 4) = 0 := congrFun i0 (3 : Fin 4)
  have i20 : ((cfg0 a).win 2).index t (0 : Fin 4) = t.val := congrFun i2 (0 : Fin 4)
  have i21 : ((cfg0 a).win 2).index t (1 : Fin 4) = 0 := congrFun i2 (1 : Fin 4)
  have i22 : ((cfg0 a).win 2).index t (2 : Fin 4) = 0 := congrFun i2 (2 : Fin 4)
  have i23 : ((cfg0 a).win 2).index t (3 : Fin 4) = 0 := congrFun i2 (3 : Fin 4)
  have x0 : (x 0).val < 1 := (x 0).isLt
  have x1 : (x 1).val < 1 := (x 1).isLt
  show X ((((cfg0 a).win 0).blk t).view.emb x) = Cert.Spec.G X ((((cfg0 a).win 2).blk t).view.emb
    (slot0.emb x))
  refine (G_at X _ _ r ?_ ?_ ?_ ?_ ?_).symm
  · show ((cfg0 a).win 2).index t (0 : Fin 4) * 1 + 1 * (0 + 1 * (x 0).val) = r.val
    rw [i20]; omega
  · show ((cfg0 a).win 0).index t (0 : Fin 4) * 1 + 1 * (x 0).val = r.val / 28
    rw [i00, h0]; omega
  · show ((cfg0 a).win 0).index t (1 : Fin 4) * 1 + 1 * (x 1).val = if ((cfg0 a).win 2).index t (1 : Fin 4) * 2 + 1 * (0 + 1 * (x 1).val) = 0 then _ else _
    rw [i01, i21, h1, if_pos (by omega)]; omega
  · show ((cfg0 a).win 0).index t (2 : Fin 4) * 257 + 1 * (x 2).val = ((cfg0 a).win 2).index t (2 : Fin 4) * 257 + 1 * (0 + 1 * (x 2).val)
    rw [i02, i22]; omega
  · show ((cfg0 a).win 0).index t (3 : Fin 4) * 600 + 1 * (x 3).val = ((cfg0 a).win 2).index t (3 : Fin 4) * 600 + 1 * (0 + 1 * (x 3).val)
    rw [i03, i23]; omega

theorem hi_piece (a : (pcfg0 (F := F)).Adm) (X : S8x8x257x600.Idx → Elt F .f32) (t : Fin grid0.N) (r : Fin 224) (hr : r.val = t.val)
    (h0 : (a.1 0 (ix1 r)).toNat = r.val / 28) (h1 : (a.1 2 (ix1 r)).toNat = (pairHi (rowPair r)).val)
    (x : S1x1x257x600.Idx) :
    (((cfg0 a).win 1).blk t).view.read (Elt F) X x
      = (((cfg0 a).win 2).blk t).view.read (Elt F) (Cert.Spec.G X)
          (slot1.emb x) := by
  have i0 : ((cfg0 a).win 1).index t = ![(a.1 0 (ix1 r)).toNat, (a.1 2 (ix1 r)).toNat, 0, 0] := (index1 a t).trans (transform1_eq a.1 t r hr)
  have i2 : ((cfg0 a).win 2).index t = ![t.val, 0, 0, 0] := (index2 a t).trans (transform2_eq t)
  have i00 : ((cfg0 a).win 1).index t (0 : Fin 4) = (a.1 0 (ix1 r)).toNat := congrFun i0 (0 : Fin 4)
  have i01 : ((cfg0 a).win 1).index t (1 : Fin 4) = (a.1 2 (ix1 r)).toNat := congrFun i0 (1 : Fin 4)
  have i02 : ((cfg0 a).win 1).index t (2 : Fin 4) = 0 := congrFun i0 (2 : Fin 4)
  have i03 : ((cfg0 a).win 1).index t (3 : Fin 4) = 0 := congrFun i0 (3 : Fin 4)
  have i20 : ((cfg0 a).win 2).index t (0 : Fin 4) = t.val := congrFun i2 (0 : Fin 4)
  have i21 : ((cfg0 a).win 2).index t (1 : Fin 4) = 0 := congrFun i2 (1 : Fin 4)
  have i22 : ((cfg0 a).win 2).index t (2 : Fin 4) = 0 := congrFun i2 (2 : Fin 4)
  have i23 : ((cfg0 a).win 2).index t (3 : Fin 4) = 0 := congrFun i2 (3 : Fin 4)
  have x0 : (x 0).val < 1 := (x 0).isLt
  have x1 : (x 1).val < 1 := (x 1).isLt
  show X ((((cfg0 a).win 1).blk t).view.emb x) = Cert.Spec.G X ((((cfg0 a).win 2).blk t).view.emb
    (slot1.emb x))
  refine (G_at X _ _ r ?_ ?_ ?_ ?_ ?_).symm
  · show ((cfg0 a).win 2).index t (0 : Fin 4) * 1 + 1 * (0 + 1 * (x 0).val) = r.val
    rw [i20]; omega
  · show ((cfg0 a).win 1).index t (0 : Fin 4) * 1 + 1 * (x 0).val = r.val / 28
    rw [i00, h0]; omega
  · show ((cfg0 a).win 1).index t (1 : Fin 4) * 1 + 1 * (x 1).val = if ((cfg0 a).win 2).index t (1 : Fin 4) * 2 + 1 * (1 + 1 * (x 1).val) = 0 then _ else _
    rw [i01, i21, h1, if_neg (by omega)]; omega
  · show ((cfg0 a).win 1).index t (2 : Fin 4) * 257 + 1 * (x 2).val = ((cfg0 a).win 2).index t (2 : Fin 4) * 257 + 1 * (0 + 1 * (x 2).val)
    rw [i02, i22]; omega
  · show ((cfg0 a).win 1).index t (3 : Fin 4) * 600 + 1 * (x 3).val = ((cfg0 a).win 2).index t (3 : Fin 4) * 600 + 1 * (0 + 1 * (x 3).val)
    rw [i03, i23]; omega

/-! ## The region's tables, the write-backs, the cover -/

/-- The tables' words at row r: its batch, and the two channels of its pair. -/
theorem tbl_rows (r : Fin 224) : (tbl m 0 (ix1 r)).toNat = r.val / 28 ∧ (tbl m 1 (ix1 r)).toNat = (pairLo (rowPair r)).val
    ∧ (tbl m 2 (ix1 r)).toNat = (pairHi (rowPair r)).val := by
  have e : S224.rowMajor (ix1 r) = r := Fin.ext (Shape.rowMajor_val_one (ix1 r))
  rw [tbl_0, tbl_1, tbl_2]
  show (lit0 (S224.rowMajor (ix1 r))).toNat = _ ∧ (lit1 (S224.rowMajor (ix1 r))).toNat = _ ∧ (lit2 (S224.rowMajor (ix1 r))).toNat = _
  rw [e]
  exact lit_rows r

/-- What point t writes back is block t of the result function of the input array. -/
theorem flushed_eq (c : Dev nD) (t : Fin (cfgM m).N) :
    (dats m 0 c).flushed 2 t = (((cfgM m).win 2).blk t).view.read (Elt F) (Cert.Spec.G (V m c main_arg0)) := by
  have ht : t.val < 224 := Nat.lt_of_lt_of_eq t.isLt N_0
  obtain ⟨h0, h1, h2⟩ := tbl_rows m ⟨t.val, ht⟩
  show ((cfgM m).win 2).cut (grid0.coords t) ((dats m 0 c).after 2 t) = _
  rw [after_2]
  unfold outAt
  exact (out2_eq c _ _ _ _ _ _ _ _ _ _ _ _ _ (iblk m c 0 t) (iblk m c 1 t)).trans (canon2_eq _ _ _
    (fun x => lo_piece (adm m) (V m c main_arg0) t ⟨t.val, ht⟩ rfl h0 h1 x)
    (fun x => hi_piece (adm m) (V m c main_arg0) t ⟨t.val, ht⟩ rfl h0 h2 x))

/-- Every index of the [224, 2, 257, 600] array is in the block of the point its row names. -/
theorem covered (a : (pcfg0 (F := F)).Adm) (i : S224x2x257x600.Idx) :
    ∃ t : Fin (cfg0 a).N, ((cfg0 a).win 2).flush t = true ∧ i ∈ (((cfg0 a).win 2).blk t).view.set := by
  have b0 : (i 0).val < 224 := (i 0).isLt
  have b1 : (i 1).val < 2 := (i 1).isLt
  have b2 : (i 2).val < 257 := (i 2).isLt
  have b3 : (i 3).val < 600 := (i 3).isLt
  have hN : (i 0).val < grid0.N := Nat.lt_of_lt_of_eq b0 N_0.symm
  refine ⟨⟨(i 0).val, hN⟩, flush2 a _, ?_⟩
  have i2 : ((cfg0 a).win 2).index ⟨(i 0).val, hN⟩ = ![(i 0).val, 0, 0, 0] := (index2 a _).trans (transform2_eq _)
  have i20 : ((cfg0 a).win 2).index ⟨(i 0).val, hN⟩ (0 : Fin 4) = (i 0).val := congrFun i2 (0 : Fin 4)
  have i21 : ((cfg0 a).win 2).index ⟨(i 0).val, hN⟩ (1 : Fin 4) = 0 := congrFun i2 (1 : Fin 4)
  have i22 : ((cfg0 a).win 2).index ⟨(i 0).val, hN⟩ (2 : Fin 4) = 0 := congrFun i2 (2 : Fin 4)
  have i23 : ((cfg0 a).win 2).index ⟨(i 0).val, hN⟩ (3 : Fin 4) = 0 := congrFun i2 (3 : Fin 4)
  refine (Finset.ext_iff.mp (View.set_slice_whole main_v0 (((cfg0 a).win 2).rect ⟨(i 0).val, hN⟩)) i).mpr ?_
  refine Rect.mem_set_unit.mpr fun ax => ?_
  match ax with
  | ⟨0, _⟩ =>
    show ((cfg0 a).win 2).index ⟨(i 0).val, hN⟩ (0 : Fin 4) * 1 ≤ (i 0).val ∧ (i 0).val < ((cfg0 a).win 2).index ⟨(i 0).val, hN⟩ (0 : Fin 4) * 1 + 1
    rw [i20]; omega
  | ⟨1, _⟩ =>
    show ((cfg0 a).win 2).index ⟨(i 0).val, hN⟩ (1 : Fin 4) * 2 ≤ (i 1).val ∧ (i 1).val < ((cfg0 a).win 2).index ⟨(i 0).val, hN⟩ (1 : Fin 4) * 2 + 2
    rw [i21]; omega
  | ⟨2, _⟩ =>
    show ((cfg0 a).win 2).index ⟨(i 0).val, hN⟩ (2 : Fin 4) * 257 ≤ (i 2).val ∧ (i 2).val < ((cfg0 a).win 2).index ⟨(i 0).val, hN⟩ (2 : Fin 4) * 257 + 257
    rw [i22]; omega
  | ⟨3, _⟩ =>
    show ((cfg0 a).win 2).index ⟨(i 0).val, hN⟩ (3 : Fin 4) * 600 ≤ (i 3).val ∧ (i 3).val < ((cfg0 a).win 2).index ⟨(i 0).val, hN⟩ (3 : Fin 4) * 600 + 600
    rw [i23]; omega

/-- The output array after the region: the result function of the input array as the region found it. -/
theorem final (c : Dev nD) : (dats m 0 c).arrAt 2 (cfgM m).N = Cert.Spec.G (V m c main_arg0) :=
  (dats m 0 c).arrAt_eq_of_cover 2 (Cert.Spec.G (V m c main_arg0)) (fun t _ => flushed_eq m c t) (covered (adm m))

end Cert.KernelIdeal.Hand

end
-- ==== Proof.RefRun.lean ====
/-
  The reference program's @main as the list of its twenty host operations, and its run read back: every weakly
  fair execution terminates with the result buffer at the operations' composed term of the argument's launch
  contents, and the argument unchanged. The composed term is named piece by piece: the two start-index arrays
  as the program builds them (each a literal table of 28 channel numbers, passed through a select whose mask is
  the all-false constant, then given a trailing unit axis), and the result as the reshape of the concatenation,
  along a new axis of extent two, of the two gathers of channel planes.
-/
import proofs.«149601_j9242769622016_1_alg».proof.Proof.Gen.ReferenceIdeal
import Idealize.ShloMosaic.Lib.StableHlo.Run

noncomputable section

namespace Cert.ReferenceIdeal.Hand

open Cert.ReferenceIdeal Cert.ReferenceIdeal.Gen Idealize.ShloMosaic Idealize.ShloMosaic.TcCoe Idealize.SL.Sem Idealize.ShloMosaic.StableHlo

variable {F : FTy → Type} [FloatOps F]

/-- The gather's dimension record, under its short name. -/
abbrev gdims : GatherDims S8x8x257x600 S28x1 S8x28x257x600 :=
  gather_S8x8x257x600_S28x1_S8x28x257x600_023_1_n_n_1_1_81257600

/-- The first start-index array, as the program builds it: the table of smaller channels, selected against the
    table plus eight under the all-false mask, with a trailing unit axis. -/
abbrev idxLo : IVec S28x1 32 :=
  broadcastInDim S28x1 ![0] bcast_S28_S28x1_0
    (select (constantI S28 1 0#1)
      (addi (fun i => lit0 (S28.rowMajor i)) (broadcastInDim S28 ![] bcast_S_S28 (constantI S_ 32 8#32)))
      (fun i => lit0 (S28.rowMajor i)))

/-- The second start-index array, built the same way from the table of larger channels. -/
abbrev idxHi : IVec S28x1 32 :=
  broadcastInDim S28x1 ![0] bcast_S28_S28x1_0
    (select (constantI S28 1 0#1)
      (addi (fun i => lit1 (S28.rowMajor i)) (broadcastInDim S28 ![] bcast_S_S28 (constantI S_ 32 8#32)))
      (fun i => lit1 (S28.rowMajor i)))

/-- The two gathered stacks of planes side by side on a new axis of extent two, before the final reshape. -/
abbrev stacked (x : (⟨S8x8x257x600, .f32⟩ : BufTy).Contents (Elt F)) : (⟨S8x28x2x257x600, .f32⟩ : BufTy).Contents (Elt F) :=
  concatenate S8x28x2x257x600 2
    [⟨S8x28x1x257x600, broadcastInDim S8x28x1x257x600 ![0, 1, 3, 4] bcast_S8x28x257x600_S8x28x1x257x600_0_1_3_4 (Host.gather gdims x idxLo)⟩,
     ⟨S8x28x1x257x600, broadcastInDim S8x28x1x257x600 ![0, 1, 3, 4] bcast_S8x28x257x600_S8x28x1x257x600_0_1_3_4 (Host.gather gdims x idxHi)⟩]
    concatenates_S8x28x1x257x600_S8x28x1x257x600_S8x28x2x257x600_d2

/-- The result as one term of the argument: the stacked planes in row-major order at the output's shape. -/
abbrev result (x : (⟨S8x8x257x600, .f32⟩ : BufTy).Contents (Elt F)) : (⟨S224x2x257x600, .f32⟩ : BufTy).Contents (Elt F) :=
  shapeCast S224x2x257x600 (stacked x) shapeCasts_S8x28x2x257x600_S224x2x257x600

/-- @main's 20 operations, in order. -/
abbrev ops : List (HloOp τ sig (Elt F)) :=
  [ nullary main_c (fun i => lit0 (S28.rowMajor i)),
    nullary main_c_0 (constantI S28 1 0#1),
    nullary main_c_1 (fun i => lit1 (S28.rowMajor i)),
    nullary main_c_2 (constantI S28 1 0#1),
    nullary main_c_3 (constantI S_ 32 8#32),
    unary main_c_3 main_v0 (broadcastInDim S28 ![] bcast_S_S28 : (⟨S_, .i32⟩ : BufTy).Contents (Elt F) → (⟨S28, .i32⟩ : BufTy).Contents (Elt F)),
    binary main_c main_v0 main_v1 (addi : (⟨S28, .i32⟩ : BufTy).Contents (Elt F) → (⟨S28, .i32⟩ : BufTy).Contents (Elt F) → (⟨S28, .i32⟩ : BufTy).Contents (Elt F)),
    ternary main_c_0 main_v1 main_c main_v2 (select : (⟨S28, .i1⟩ : BufTy).Contents (Elt F) → (⟨S28, .i32⟩ : BufTy).Contents (Elt F) → (⟨S28, .i32⟩ : BufTy).Contents (Elt F) → (⟨S28, .i32⟩ : BufTy).Contents (Elt F)),
    unary main_v2 main_v3 (broadcastInDim S28x1 ![0] bcast_S28_S28x1_0 : (⟨S28, .i32⟩ : BufTy).Contents (Elt F) → (⟨S28x1, .i32⟩ : BufTy).Contents (Elt F)),
    binary main_arg0 main_v3 main_v4 ((fun x i => Host.gather gather_S8x8x257x600_S28x1_S8x28x257x600_023_1_n_n_1_1_81257600 x i) : (⟨S8x8x257x600, .f32⟩ : BufTy).Contents (Elt F) → (⟨S28x1, .i32⟩ : BufTy).Contents (Elt F) → (⟨S8x28x257x600, .f32⟩ : BufTy).Contents (Elt F)),
    nullary main_c_4 (constantI S_ 32 8#32),
    unary main_c_4 main_v5 (broadcastInDim S28 ![] bcast_S_S28 : (⟨S_, .i32⟩ : BufTy).Contents (Elt F) → (⟨S28, .i32⟩ : BufTy).Contents (Elt F)),
    binary main_c_1 main_v5 main_v6 (addi : (⟨S28, .i32⟩ : BufTy).Contents (Elt F) → (⟨S28, .i32⟩ : BufTy).Contents (Elt F) → (⟨S28, .i32⟩ : BufTy).Contents (Elt F)),
    ternary main_c_2 main_v6 main_c_1 main_v7 (select : (⟨S28, .i1⟩ : BufTy).Contents (Elt F) → (⟨S28, .i32⟩ : BufTy).Contents (Elt F) → (⟨S28, .i32⟩ : BufTy).Contents (Elt F) → (⟨S28, .i32⟩ : BufTy).Contents (Elt F)),
    unary main_v7 main_v8 (broadcastInDim S28x1 ![0] bcast_S28_S28x1_0 : (⟨S28, .i32⟩ : BufTy).Contents (Elt F) → (⟨S28x1, .i32⟩ : BufTy).Contents (Elt F)),
    binary main_arg0 main_v8 main_v9 ((fun x i => Host.gather gather_S8x8x257x600_S28x1_S8x28x257x600_023_1_n_n_1_1_81257600 x i) : (⟨S8x8x257x600, .f32⟩ : BufTy).Contents (Elt F) → (⟨S28x1, .i32⟩ : BufTy).Contents (Elt F) → (⟨S8x28x257x600, .f32⟩ : BufTy).Contents (Elt F)),
    unary main_v4 main_v10 (broadcastInDim S8x28x1x257x600 ![0, 1, 3, 4] bcast_S8x28x257x600_S8x28x1x257x600_0_1_3_4 : (⟨S8x28x257x600, .f32⟩ : BufTy).Contents (Elt F) → (⟨S8x28x1x257x600, .f32⟩ : BufTy).Contents (Elt F)),
    unary main_v9 main_v11 (broadcastInDim S8x28x1x257x600 ![0, 1, 3, 4] bcast_S8x28x257x600_S8x28x1x257x600_0_1_3_4 : (⟨S8x28x257x600, .f32⟩ : BufTy).Contents (Elt F) → (⟨S8x28x1x257x600, .f32⟩ : BufTy).Contents (Elt F)),
    binary main_v10 main_v11 main_v12 ((fun a b => concatenate S8x28x2x257x600 2 [⟨S8x28x1x257x600, a⟩, ⟨S8x28x1x257x600, b⟩] concatenates_S8x28x1x257x600_S8x28x1x257x600_S8x28x2x257x600_d2) : (⟨S8x28x1x257x600, .f32⟩ : BufTy).Contents (Elt F) → (⟨S8x28x1x257x600, .f32⟩ : BufTy).Contents (Elt F) → (⟨S8x28x2x257x600, .f32⟩ : BufTy).Contents (Elt F)),
    StableHlo.reshape main_v12 main_v13 rfl shapeCasts_S8x28x2x257x600_S224x2x257x600 ]

theorem main_eq (c : Dev nD) : main (F := F) c = seq ops := rfl
theorem scopedRefs_eq : (Finset.univ.filter fun b : Ref sig .tc => b.isScoped) = ∅ := by decide
theorem scopedSems_eq : (Finset.univ.filter fun sm : SemLoc sig => sm.isScoped .tc) = ∅ := by decide
theorem ops_sub : (ops : List (HloOp τ sig (Elt F))).Forall fun op => op.bufs ⊆ tcRefs τ sig :=
  ⟨nullary_bufs_sub .., nullary_bufs_sub .., nullary_bufs_sub .., nullary_bufs_sub .., nullary_bufs_sub ..,
   unary_bufs_sub .., binary_bufs_sub .., ternary_bufs_sub .., unary_bufs_sub .., binary_bufs_sub ..,
   nullary_bufs_sub .., unary_bufs_sub .., binary_bufs_sub .., ternary_bufs_sub .., unary_bufs_sub .., binary_bufs_sub ..,
   unary_bufs_sub .., unary_bufs_sub .., binary_bufs_sub .., reshape_bufs_sub ..⟩

/-- On every device, for any float values, from any memory with zero counters: every weakly fair execution of
    @main terminates with the result buffer at the operations' composed term of the argument, and the argument
    unchanged. -/
theorem run_result (m : (ℓ : Loc nD τ sig) → Buf (Elt F) ℓ) (ρ : Dev nD → PrngReg) :
    θ_run defs (onTc (τ := τ) (main (F := F))) ⟨m, fun _ => 0, ρ⟩ fun r => ∀ c : Dev nD,
      r.2.mem ((c.tc : Thread nD τ).loc main_v13) = result (m ((c.tc : Thread nD τ).loc main_arg0))
      ∧ r.2.mem ((c.tc : Thread nD τ).loc main_arg0) = m ((c.tc : Thread nD τ).loc main_arg0) :=
  (θ_run defs _ _).mono (fun _ h c => ⟨(h c main_v13).trans (by after_results; rfl),
      (h c main_arg0).trans (by after_results)⟩)
    (run_seq scopedRefs_eq scopedSems_eq defs main (fun _ => ops) main_eq (fun _ => ops_sub) m ρ)

end Cert.ReferenceIdeal.Hand

end
-- ==== Proof.RefValue.lean ====
/-
  The reference's result read index by index. The composed term of the run is a reshape of a concatenation of
  two broadcasts of two gathers; at output index (r, s, f, t), with r = 28·b + p, the reshape reads the stacked
  array at (b, p, s, f, t) (the two row-major positions agree), the concatenation reads its s-th piece at
  (b, p, 0, f, t), the broadcast reads the gather at (b, p, f, t), and the gather reads the input at
  (b, c, f, t) where c is the p-th entry of the start-index table, read signed and clamped into [0, 7]. Every
  table entry is a channel number in 0..7, so the clamp changes nothing, and the two tables are the smaller and
  the larger channel of the p-th pair. Hence the result is the re-indexing G of the input.
-/
import proofs.«149601_j9242769622016_1_alg».proof.Proof.RefRun
import proofs.«149601_j9242769622016_1_alg».proof.Proof.Spec
import Idealize.ShloMosaic.Lib.ValueIdx
import Idealize.ShloMosaic.Lib.Pipeline.Value

noncomputable section

namespace Cert.ReferenceIdeal.Hand

open Idealize.ShloMosaic Idealize.ShloMosaic.TcCoe Idealize.SL.Sem Cert.ReferenceIdeal
open Cert.ReferenceIdeal.Gen Idealize.ShloMosaic.ValueIdx Cert.Spec

/-! ## The gather at an index -/

/-- The operand index the gather reads for result index (b, p, f, t): batch, frequency and time are the result's
    own (offset axes), the channel is the p-th start index read signed and clamped into [0, 8 − 1]. -/
theorem operandIdx_eq {w : Nat} (idx : IVec S28x1 w) (b : Fin 8) (p : Fin 28) (f : Fin 257) (t : Fin 600) :
    gdims.operandIdx (ix4 b p f t) idx
      = ix4 b ⟨min (idx (ix2 p 0)).toInt.toNat 7, by omega⟩ f t := by
  funext a
  refine Fin.ext ?_
  show gdims.start (ix4 b p f t) idx a + gdims.batchCoord (ix4 b p f t) a + gdims.offCoord (ix4 b p f t) a = _
  rw [GatherDims.batchCoord_eq_zero _ _ _ (show a ∉ gdims.operandBatchingDims from List.not_mem_nil), Nat.add_zero]
  match a with
  | ⟨0, h0⟩ =>
    have hs : (⟨0, h0⟩ : Fin S8x8x257x600.rank) ∉ gdims.startIndexMap := by decide +revert
    have hk : (⟨0, h0⟩ : Fin S8x8x257x600.rank) ∈ gdims.sKept := by decide +revert
    unfold GatherDims.start GatherDims.offCoord
    rw [dif_neg hs, dif_pos hk, Nat.zero_add]
    rfl
  | ⟨1, h1⟩ =>
    have hs : (⟨1, h1⟩ : Fin S8x8x257x600.rank) ∈ gdims.startIndexMap := by decide +revert
    have hk : (⟨1, h1⟩ : Fin S8x8x257x600.rank) ∉ gdims.sKept := by decide +revert
    unfold GatherDims.start GatherDims.offCoord
    rw [dif_pos hs, dif_neg hk, Nat.add_zero]
    have hsi : gdims.siIdx (ix4 b p f t) ⟨List.idxOf (⟨1, h1⟩ : Fin S8x8x257x600.rank) gdims.startIndexMap,
        List.idxOf_lt_length_iff.2 hs⟩ = ix2 p 0 := by
      funext c; refine Fin.ext ?_
      match c with
      | ⟨0, _⟩ => rfl
      | ⟨1, _⟩ => rfl
    rw [hsi]
    rfl
  | ⟨2, h2⟩ =>
    have hs : (⟨2, h2⟩ : Fin S8x8x257x600.rank) ∉ gdims.startIndexMap := by decide +revert
    have hk : (⟨2, h2⟩ : Fin S8x8x257x600.rank) ∈ gdims.sKept := by decide +revert
    unfold GatherDims.start GatherDims.offCoord
    rw [dif_neg hs, dif_pos hk, Nat.zero_add]
    rfl
  | ⟨3, h3⟩ =>
    have hs : (⟨3, h3⟩ : Fin S8x8x257x600.rank) ∉ gdims.startIndexMap := by decide +revert
    have hk : (⟨3, h3⟩ : Fin S8x8x257x600.rank) ∈ gdims.sKept := by decide +revert
    unfold GatherDims.start GatherDims.offCoord
    rw [dif_neg hs, dif_pos hk, Nat.zero_add]
    rfl

/-- The gather read at (b, p, f, t): the input's plane of the channel the p-th start index names. -/
theorem gather_apply {α : Type} {w : Nat} (x : S8x8x257x600.Idx → α) (idx : IVec S28x1 w)
    (b : Fin 8) (p : Fin 28) (f : Fin 257) (t : Fin 600) :
    Host.gather gdims x idx (ix4 b p f t) = x (ix4 b ⟨min (idx (ix2 p 0)).toInt.toNat 7, by omega⟩ f t) :=
  congrArg x (operandIdx_eq idx b p f t)

/-! ## The start-index tables -/

/-- The first start-index array at (p, 0) is the p-th entry of the first table: the select's mask is the
    all-false constant, so it picks its second operand, the table itself. -/
theorem idxLo_apply (p : Fin 28) : idxLo (ix2 p 0) = lit0 p := by
  refine (broadcastInDim_apply ![0] bcast_S28_S28x1_0 _ (ix2 p 0) (ix1 p) fun a => ?_).trans ?_
  · match a with
    | ⟨0, _⟩ => rfl
  · rw [select_apply]
    refine (select_zero _ _).trans ?_
    exact congrArg lit0 (Fin.ext (Shape.rowMajor_val_one _))

/-- The second start-index array at (p, 0) is the p-th entry of the second table. -/
theorem idxHi_apply (p : Fin 28) : idxHi (ix2 p 0) = lit1 p := by
  refine (broadcastInDim_apply ![0] bcast_S28_S28x1_0 _ (ix2 p 0) (ix1 p) fun a => ?_).trans ?_
  · match a with
    | ⟨0, _⟩ => rfl
  · rw [select_apply]
    refine (select_zero _ _).trans ?_
    exact congrArg lit1 (Fin.ext (Shape.rowMajor_val_one _))

/-- Every entry of the first table, read signed and clamped into [0, 7], is the smaller channel of its pair. -/
theorem clampLo : ∀ p : Fin 28, min (lit0 p).toInt.toNat 7 = (pairLo p).val := by decide
/-- Every entry of the second table, read signed and clamped into [0, 7], is the larger channel of its pair. -/
theorem clampHi : ∀ p : Fin 28, min (lit1 p).toInt.toNat 7 = (pairHi p).val := by decide

/-! ## The stacked planes at an index -/

section
variable {F : FTy → Type} [FloatOps F]

/-- Slot 0 of the stacked array at (b, p, ·, f, t) is the input's plane of the smaller channel of pair p. -/
theorem stacked_lo (x : (⟨S8x8x257x600, .f32⟩ : BufTy).Contents (Elt F)) (b : Fin 8) (p : Fin 28) (f : Fin 257) (t : Fin 600) :
    stacked x (ix5 b p (0 : Fin 2) f t) = x (ix4 b (pairLo p) f t) := by
  refine (concatenate_pair_apply_left (s₁ := S8x28x1x257x600) (s₂ := S8x28x1x257x600) (2 : Fin S8x28x2x257x600.rank) _ _ _ (ix5 b p (0 : Fin 2) f t) rfl (ix5 b p (0 : Fin 1) f t) fun a => ?_).trans ?_
  · match a with
    | ⟨0, _⟩ => rfl
    | ⟨1, _⟩ => rfl
    | ⟨2, _⟩ => rfl
    | ⟨3, _⟩ => rfl
    | ⟨4, _⟩ => rfl
  refine (broadcastInDim_apply ![0, 1, 3, 4] bcast_S8x28x257x600_S8x28x1x257x600_0_1_3_4 _ (ix5 b p (0 : Fin 1) f t) (ix4 b p f t) fun a => ?_).trans ?_
  · match a with
    | ⟨0, _⟩ => rfl
    | ⟨1, _⟩ => rfl
    | ⟨2, _⟩ => rfl
    | ⟨3, _⟩ => rfl
  refine (gather_apply x idxLo b p f t).trans ?_
  refine congrArg (fun c : Fin 8 => x (ix4 b c f t)) (Fin.ext ?_)
  show min (idxLo (ix2 p 0)).toInt.toNat 7 = (pairLo p).val
  rw [idxLo_apply]
  exact clampLo p

/-- Slot 1 of the stacked array at (b, p, ·, f, t) is the input's plane of the larger channel of pair p. -/
theorem stacked_hi (x : (⟨S8x8x257x600, .f32⟩ : BufTy).Contents (Elt F)) (b : Fin 8) (p : Fin 28) (f : Fin 257) (t : Fin 600) :
    stacked x (ix5 b p (1 : Fin 2) f t) = x (ix4 b (pairHi p) f t) := by
  refine (concatenate_pair_apply_right (s₁ := S8x28x1x257x600) (s₂ := S8x28x1x257x600) (2 : Fin S8x28x2x257x600.rank) _ _ _ (ix5 b p (1 : Fin 2) f t) rfl rfl (ix5 b p (0 : Fin 1) f t) (fun a ha => ?_) rfl).trans ?_
  · match a with
    | ⟨0, _⟩ => rfl
    | ⟨1, _⟩ => rfl
    | ⟨2, _⟩ => exact absurd rfl ha
    | ⟨3, _⟩ => rfl
    | ⟨4, _⟩ => rfl
  refine (broadcastInDim_apply ![0, 1, 3, 4] bcast_S8x28x257x600_S8x28x1x257x600_0_1_3_4 _ (ix5 b p (0 : Fin 1) f t) (ix4 b p f t) fun a => ?_).trans ?_
  · match a with
    | ⟨0, _⟩ => rfl
    | ⟨1, _⟩ => rfl
    | ⟨2, _⟩ => rfl
    | ⟨3, _⟩ => rfl
  refine (gather_apply x idxHi b p f t).trans ?_
  refine congrArg (fun c : Fin 8 => x (ix4 b c f t)) (Fin.ext ?_)
  show min (idxHi (ix2 p 0)).toInt.toNat 7 = (pairHi p).val
  rw [idxHi_apply]
  exact clampHi p

/-! ## The result at an index -/

/-- The result at (r, s, f, t) is the input at (r / 28, the channel slot s of pair r % 28 names, f, t). -/
theorem result_apply (x : (⟨S8x8x257x600, .f32⟩ : BufTy).Contents (Elt F)) (r : Fin 224) (s : Fin 2) (f : Fin 257) (t : Fin 600) :
    result x (ix4 r s f t) = x (ix4 (rowBatch r) (rowChan r s) f t) := by
  refine (shapeCast_apply (stacked x) shapeCasts_S8x28x2x257x600_S224x2x257x600 (ix4 r s f t)
    (ix5 (rowBatch r) (rowPair r) s f t) ?_).trans ?_
  · rw [Shape.rowMajor_val_five, Shape.rowMajor_val_four]
    show ((((r.val / 28) * 28 + r.val % 28) * 2 + s.val) * 257 + f.val) * 600 + t.val
      = ((r.val * 2 + s.val) * 257 + f.val) * 600 + t.val
    omega
  · match s with
    | ⟨0, _⟩ => exact stacked_lo x (rowBatch r) (rowPair r) f t
    | ⟨1, _⟩ => exact stacked_hi x (rowBatch r) (rowPair r) f t

/-- The run's composed term is the re-indexing G of the input. -/
theorem result_eq_G (x : (⟨S8x8x257x600, .f32⟩ : BufTy).Contents (Elt F)) : result x = G x := by
  funext j
  obtain ⟨r, s, f, t, rfl⟩ : ∃ r s f t, j = ix4 r s f t := ⟨_, _, _, _, eq_ix4 j⟩
  exact (result_apply x r s f t).trans (G_apply x r s f t).symm

/-- On every device, for any float values, from any memory with zero counters: every weakly fair execution of
    the reference's @main terminates with the result buffer at G of the argument, and the argument unchanged. -/
theorem run_gen (m : (ℓ : Loc nD τ sig) → Buf (Elt F) ℓ) (ρ : Dev nD → PrngReg) :
    θ_run (Cert.ReferenceIdeal.defs (F := F)) (onTc (τ := τ) (Cert.ReferenceIdeal.main (F := F))) ⟨m, fun _ => 0, ρ⟩ (fun r => ∀ c : Dev nD,
      r.2.mem ((c.tc : Thread nD τ).loc main_v13) = Cert.Spec.G (m ((c.tc : Thread nD τ).loc main_arg0))
      ∧ r.2.mem ((c.tc : Thread nD τ).loc main_arg0) = m ((c.tc : Thread nD τ).loc main_arg0)) :=
  (θ_run _ _ _).mono (fun _ h c => ⟨(h c).1.trans (result_eq_G _), (h c).2⟩) (run_result m ρ)

end

/-- The same at the ideal instance: the form a value certificate cites. -/
theorem run (m : (ℓ : Loc nD τ sig) → Buf (Elt Ideal) ℓ) (ρ : Dev nD → PrngReg) :
    θ_run (Cert.ReferenceIdeal.defs (F := Ideal)) (onTc (τ := τ) (Cert.ReferenceIdeal.main (F := Ideal))) ⟨m, fun _ => 0, ρ⟩ (fun r => ∀ c : Dev nD,
      r.2.mem ((c.tc : Thread nD τ).loc main_v13) = Cert.Spec.G (m ((c.tc : Thread nD τ).loc main_arg0))
      ∧ r.2.mem ((c.tc : Thread nD τ).loc main_arg0) = m ((c.tc : Thread nD τ).loc main_arg0)) :=
  run_gen m ρ

end Cert.ReferenceIdeal.Hand

end
-- ==== Proof.lean ====
/-
  The certificate of the channel-pair copy: for every batch b and every pair (i, j), i < j, of the eight channels,
  output row 28·b + p holds plane i of batch b in slot 0 and plane j in slot 1 (Proof/Spec.lean's G). Both programs
  only move entries, so the two results are the same re-indexing of the input and no arithmetic law is needed; the
  precondition is never opened.
  The kernel side: the three index tables hold their constants when the region is entered, every block they name
  lies inside the input array (Proof/IdealEntry.lean); the body copies the two input blocks into the two slots of
  the output block (Proof/IdealBody.lean); the one input array is dealt to its two windows by halves and the whole
  program runs (Proof/IdealLaunch.lean); the output array after all 224 write-backs is G of the input
  (Proof/IdealValue.lean). The word-level program has the same text and the same frame proof (Proof/Bits*.lean).
  The reference side: its run and its result read at an index (Proof/RefRun.lean, Proof/RefValue.lean).
-/
import proofs.«149601_j9242769622016_1_alg».proof.Defs
import proofs.«149601_j9242769622016_1_alg».proof.Proof.Gen.Kernel
import proofs.«149601_j9242769622016_1_alg».proof.Proof.Gen.KernelIdeal
import proofs.«149601_j9242769622016_1_alg».proof.Proof.Gen.ReferenceIdeal
import proofs.«149601_j9242769622016_1_alg».proof.Proof.Gen.Pre_finite_inputs
import proofs.«149601_j9242769622016_1_alg».proof.Proof.BitsLaunch
import proofs.«149601_j9242769622016_1_alg».proof.Proof.IdealLaunch
import proofs.«149601_j9242769622016_1_alg».proof.Proof.IdealValue
import proofs.«149601_j9242769622016_1_alg».proof.Proof.RefValue

noncomputable section

namespace Cert.Proof

open Idealize.ShloMosaic Idealize.ShloMosaic.TcCoe Idealize.SL.Sem

/-- The word-level kernel runs and leaves its input unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference runs and leaves its input unchanged: its run with the result dropped. -/
theorem frame_ri : Cert.frame_ReferenceIdeal := fun m ρ _ =>
  (θ_run Cert.ReferenceIdeal.defs _ _).mono (fun _ h c => (h c).2) (Cert.ReferenceIdeal.Hand.run m ρ)

/-- Both programs end with the output at G of the input, from memories agreeing on the input. -/
theorem algebraic : Cert.algebraic_KernelIdeal_ReferenceIdeal := by
  intro m ρ m' ρ' _ hagree
  refine ⟨fun c => Cert.Spec.G (m ((c.tc : Thread Cert.KernelIdeal.nD Cert.KernelIdeal.τ).loc Cert.KernelIdeal.main_arg0)), ?_, ?_⟩
  · refine (θ_run Cert.KernelIdeal.defs _ _).mono (fun r h c => ⟨(h c).1.trans ?_, (h c).2⟩)
      (Cert.KernelIdeal.Hand.run_main (F := Ideal) m ρ)
    rw [Cert.KernelIdeal.Hand.final, Cert.KernelIdeal.Hand.V_main_arg0]
  · refine (θ_run Cert.ReferenceIdeal.defs _ _).mono (fun r h c => ⟨(h c).1.trans ?_, (h c).2⟩)
      (Cert.ReferenceIdeal.Hand.run m' ρ')
    rw [hagree c]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
